-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x64 .f32) (main_arg3 : FVec F S64x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S10000x64 : Shape := ⟨2, ![10000, 64]⟩
abbrev S2000x256 : Shape := ⟨2, ![2000, 256]⟩
abbrev S2000x64 : Shape := ⟨2, ![2000, 64]⟩
abbrev S400x10000 : Shape := ⟨2, ![400, 10000]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 8
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x256, .f32⟩
  | .hbm, ⟨4, _⟩ => ⟨S10000x64, .f32⟩
  | .hbm, ⟨5, _⟩ => ⟨S10000x64, .bf16⟩
  | .hbm, ⟨6, _⟩ => ⟨S10000x256, .bf16⟩
  | .hbm, ⟨7, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S64x256, .f32⟩
  | .local _ .vmem, ⟨9, _⟩ => ⟨S400x64, .bf16⟩
  | .local _ .vmem, ⟨10, _⟩ => ⟨S400x64, .bf16⟩
  | .local _ .vmem, ⟨11, _⟩ => ⟨S400x256, .bf16⟩
  | .local _ .vmem, ⟨12, _⟩ => ⟨S400x256, .bf16⟩
  | .local _ .vmem, ⟨13, _⟩ => ⟨S400x64, .bf16⟩
  | .local _ .vmem, ⟨14, _⟩ => ⟨S400x64, .bf16⟩
  | .local _ .vmem, ⟨15, _⟩ => ⟨S10000x64, .bf16⟩
  | .local _ .vmem, ⟨16, _⟩ => ⟨S10000x256, .bf16⟩
  | .local _ .vmem, ⟨17, _⟩ => ⟨S400x256, .f32⟩
  | .local _ .vmem, ⟨18, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S400x64_S400 : S400x64.Reduces [1] S400
  shapeCasts_S400_S400x1 : S400.ShapeCasts S400x1
  broadcasts_S400x1_S400x64 : S400x1.Broadcasts S400x64
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S64x256_S64x256_0_0 : ∀ a, (![0, 0] : Fin 2 → Nat) a + S64x256.size a ≤ S64x256.size a
  h_S64x256 : 0 < S64x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  shapeCasts_S400x64_S400x64 : S400x64.ShapeCasts S400x64
  reduces_S400x10000_S400 : S400x10000.Reduces [1] S400
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S400x1_S400x256 : S400x1.Broadcasts S400x256
  dot_S2000x256_S256x64_S2000x64_1_0_0_1_n_n_wf : DotDims.WF S2000x256 S256x64 S2000x64 [1] [0] [0] [1] [] []
  dot_S400x10000_S10000x64_S400x64_1_0_0_1_n_n_wf : DotDims.WF S400x10000 S10000x64 S400x64 [1] [0] [0] [1] [] []
  dot_S400x64_S64x256_S400x256_1_0_0_1_n_n_wf : DotDims.WF S400x64 S64x256 S400x256 [1] [0] [0] [1] [] []
  dot_S400x64_S10000x64_S400x10000_1_1_0_0_n_n_wf : DotDims.WF S400x64 S10000x64 S400x10000 [1] [1] [0] [0] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .bf16 = 32 ∨ (Rect.block (s := S10000x64) S400x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x64.size a ≤ S10000x64.size a
  hwx2_0 : ∀ i : grid2.Coords, EltTy.bits .bf16 = 32 ∨ (Rect.block (s := S10000x64) S400x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .bf16 = 32 ∨ (Rect.block (s := S10000x256) S10000x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x256.size a ≤ S10000x256.size a
  hwx2_3 : ∀ i : grid2.Coords, EltTy.bits .f32 = 32 ∨ (Rect.block (s := S10000x256) S400x256.size (cc2_transform_3 i) (hinb2_3 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S10000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S10000x64 : Shape := ⟨2, ![10000, 64]⟩
abbrev S_ : Shape := ⟨0, ![]⟩
abbrev S10000 : Shape := ⟨1, ![10000]⟩
abbrev S10000x1 : Shape := ⟨2, ![10000, 1]⟩
abbrev S64x10000 : Shape := ⟨2, ![64, 10000]⟩

abbrev nBuf : Space → Nat
  | .hbm => 38
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x256, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x64, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S10000x1, .f32⟩
  | .hbm, ⟨14, _⟩ => ⟨S_, .f32⟩
  | .hbm, ⟨15, _⟩ => ⟨S10000x1, .f32⟩
  | .hbm, ⟨16, _⟩ => ⟨S10000x1, .f32⟩
  | .hbm, ⟨17, _⟩ => ⟨S10000x64, .f32⟩
  | .hbm, ⟨18, _⟩ => ⟨S10000x64, .f32⟩
  | .hbm, ⟨19, _⟩ => ⟨S64x10000, .f32⟩
  | .hbm, ⟨20, _⟩ => ⟨S10000x10000, .f32⟩
  | .hbm, ⟨21, _⟩ => ⟨S_, .f32⟩
  | .hbm, ⟨22, _⟩ => ⟨S10000x10000, .f32⟩
  | .hbm, ⟨23, _⟩ => ⟨S10000x10000, .i1⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S10000x10000, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x10000, .f32⟩
  | .hbm, ⟨35, _⟩ => ⟨S10000x10000, .f32⟩
  | .hbm, ⟨36, _⟩ => ⟨S10000x256, .f32⟩
  | .hbm, ⟨37, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  reducesTo_S10000x10000_S10000_d1 : S10000x10000.ReducesTo [1] S10000
  bcast_S10000x1_S10000x10000_0_1 : S10000x1.BroadcastsInDim S10000x10000 (![0, 1] : Fin 2 → Fin S10000x10000.rank)
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []
  dot_S10000x64_S64x256_S10000x256_1_0_0_1_n_n_wf : DotDims.WF S10000x64 S64x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.K.R0.lean ====
/-
  Region 0 of the program: the first matrix product, h1 = feat · W1, computed 2000 rows at a time over a grid of
  five points. Stated at a parameter `V`, the contents of the core's buffers when the region is entered:
  each window's block at a point is read off `V`; the body stores, into the whole output block, the product of
  the point's 2000 × 256 block of the left operand with the whole 256 × 64 right operand; the right operand's
  window is fetched at the first point only and found unchanged at the later ones.
-/
import proofs.«131982_g23313082482977_cont_8to1_1054_4_alg».proof.Proof.Gen.Kernel.Launch
import proofs.«131982_g23313082482977_cont_8to1_1054_4_alg».proof.Proof.Gen.Kernel.Skeleton
import proofs.«131982_g23313082482977_cont_8to1_1054_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point, though it is fetched only at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x256 := Rect.unit (s := S2000x256) ![0, 0] S2000x256.size inb_S2000x256_S2000x256_0_0
abbrev r0_1 : Rect S256x64 := Rect.unit (s := S256x64) ![0, 0] S256x64.size inb_S256x64_S256x64_0_0
abbrev r0_2 : Rect S2000x64 := Rect.unit (s := S2000x64) ![0, 0] S2000x64.size inb_S2000x64_S2000x64_0_0

/-- What the body leaves in the output block: its one store, the product of the two blocks it loaded. -/
def out0_2 (x0 : Vec F S2000x256 .f32) (x1 : Vec F S256x64 .f32) : Vec F S2000x64 .f32 :=
  View.canon [⟨r0_2, k0_pay1 (View.ld x0 r0_0) (View.ld x1 r0_1)⟩]

/-- The one store covers the output block. -/
theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

set_option maxHeartbeats 1000000 in
/-- The body on whole staging memrefs: the two inputs' contents are kept, the output's ends at `out0_2` of them. -/
theorem sound_kernel0 (c : Dev nD) (E : Set ℕ) (i : grid0.Coords)
    (arg1 : Memref sig .tc .vmem S2000x256 .f32) (harg1 : arg1.IsWhole) (arg2 : Memref sig .tc .vmem S256x64 .f32) (harg2 : arg2.IsWhole)
    (arg3 : Memref sig .tc .vmem S2000x64 .f32) (harg3 : arg3.IsWhole)
    (x0 : Vec F S2000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__h1_body i arg1 harg1 arg2 harg2 arg3 harg3) K := by
  simp only [cc0__h1_body_eq_skeleton]; unfold cc0__h1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as found; after the body each input's buffer at its block and
    the output's at the product of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the program, 400 rows at a time over a grid of 25 points: h = max(adj · h1, 0) for the point's rows,
  then two results. The first is h with each row divided by max(√(Σ h²), ε); the second is h · W2. Stated at a parameter
  `V`, the contents of the core's buffers when the region is entered. The 400 × 10000 block of adj is fetched at
  every point; h1 and W2 are fetched whole at the first point only and found unchanged at the later ones.
-/
import proofs.«131982_g23313082482977_cont_8to1_1054_4_alg».proof.Proof.Gen.Kernel.Launch
import proofs.«131982_g23313082482977_cont_8to1_1054_4_alg».proof.Proof.Gen.Kernel.Skeleton
import proofs.«131982_g23313082482977_cont_8to1_1054_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S64x256 := Rect.unit (s := S64x256) ![0, 0] S64x256.size inb_S64x256_S64x256_0_0
abbrev r1_3 : Rect S400x64 := Rect.unit (s := S400x64) ![0, 0] S400x64.size inb_S400x64_S400x64_0_0
abbrev r1_4 : Rect S400x256 := Rect.unit (s := S400x256) ![0, 0] S400x256.size inb_S400x256_S400x256_0_0

/-- What the body leaves in the first output block: the row-normalised h of the point's rows. -/
def out1_3 (x0 : Vec F S400x10000 .f32) (x1 : Vec F S10000x64 .f32) : Vec F S400x64 .bf16 :=
  View.canon [⟨r1_3, k1_pay2 (View.ld x0 r1_0) (View.ld x1 r1_1)⟩]
/-- What the body leaves in the second output block: h · W2 for the point's rows. -/
def out1_4 (x0 : Vec F S400x10000 .f32) (x1 : Vec F S10000x64 .f32) (x2 : Vec F S64x256 .f32) : Vec F S400x256 .bf16 :=
  View.canon [⟨r1_4, k1_pay3 (View.ld x0 r1_0) (View.ld x1 r1_1) (View.ld x2 r1_2)⟩]

theorem cover1_3 (p0 : Vec F S400x64 .bf16) (y : S400x64.Idx) :
    ∃ pc ∈ ([⟨r1_3, p0⟩] : List (View.Piece (Elt F) S400x64 .bf16)), y ∈ pc.1.set :=
  View.cover_of_tiled [⟨r1_3, p0⟩] S400x64.size (by rfl) y
theorem cover1_4 (p0 : Vec F S400x256 .bf16) (y : S400x256.Idx) :
    ∃ pc ∈ ([⟨r1_4, p0⟩] : List (View.Piece (Elt F) S400x256 .bf16)), y ∈ pc.1.set :=
  View.cover_of_tiled [⟨r1_4, p0⟩] S400x256.size (by rfl) y

set_option maxHeartbeats 1000000 in
/-- The body on whole staging memrefs: the three inputs' contents are kept, each output's ends at its `out1_W` of them. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S64x256 .f32) (harg3 : arg3.IsWhole) (arg4 : Memref sig .tc .vmem S400x64 .bf16) (harg4 : arg4.IsWhole)
    (arg5 : Memref sig .tc .vmem S400x256 .bf16) (harg5 : arg5.IsWhole)
    (x0 : Vec F S400x10000 .f32) (x1 : Vec F S10000x64 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__h_body i arg1 harg1 arg2 harg2 arg3 harg3 arg4 harg4 arg5 harg5) K := by
  simp only [cc1__h_body_eq_skeleton]; unfold cc1__h_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the program, 400 rows at a time over a grid of 25 points. For the point's rows i it forms the
  similarities sim(i, j) = Σₖ hn(i, k) · hn(j, k) against every row j, drops those below 0.6 to zero, and stores
  (Σⱼ da(i, j) · y(j, ·)) / max(Σⱼ da(i, j), ε). The normalised rows hn reach the body twice: 400 rows at a time
  through one window and whole through another. The two windows read ONE array, so the proof data hold it at two
  complementary half shares. Stated at a parameter `V`, the contents of the core's buffers when the region is entered.
-/
import proofs.«131982_g23313082482977_cont_8to1_1054_4_alg».proof.Proof.Gen.Kernel.Launch
import proofs.«131982_g23313082482977_cont_8to1_1054_4_alg».proof.Proof.Gen.Kernel.Skeleton
import proofs.«131982_g23313082482977_cont_8to1_1054_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x64 := Rect.unit (s := S400x64) ![0, 0] S400x64.size inb_S400x64_S400x64_0_0
abbrev r2_1 : Rect S10000x64 := Rect.unit (s := S10000x64) ![0, 0] S10000x64.size inb_S10000x64_S10000x64_0_0
abbrev r2_2 : Rect S10000x256 := Rect.unit (s := S10000x256) ![0, 0] S10000x256.size inb_S10000x256_S10000x256_0_0
abbrev r2_3 : Rect S400x256 := Rect.unit (s := S400x256) ![0, 0] S400x256.size inb_S400x256_S400x256_0_0

/-- What the body leaves in the output block: the thresholded similarities' weighted sum of y, over their sum. -/
def out2_3 (x0 : Vec F S400x64 .bf16) (x1 : Vec F S10000x64 .bf16) (x2 : Vec F S10000x256 .bf16) : Vec F S400x256 .f32 :=
  View.canon [⟨r2_3, k2_pay1 (View.ld x0 r2_0) (View.ld x1 r2_1) (View.ld x2 r2_2)⟩]

theorem cover2_3 (p0 : Vec F S400x256 .f32) (y : S400x256.Idx) :
    ∃ pc ∈ ([⟨r2_3, p0⟩] : List (View.Piece (Elt F) S400x256 .f32)), y ∈ pc.1.set :=
  View.cover_of_tiled [⟨r2_3, p0⟩] S400x256.size (by rfl) y

set_option maxHeartbeats 1000000 in
/-- The body on whole staging memrefs: the three inputs' contents are kept, the output's ends at `out2_3` of them. -/
theorem sound_kernel2 (c : Dev nD) (E : Set ℕ) (i : grid2.Coords)
    (arg1 : Memref sig .tc .vmem S400x64 .bf16) (harg1 : arg1.IsWhole) (arg2 : Memref sig .tc .vmem S10000x64 .bf16) (harg2 : arg2.IsWhole)
    (arg3 : Memref sig .tc .vmem S10000x256 .bf16) (harg3 : arg3.IsWhole) (arg4 : Memref sig .tc .vmem S400x256 .f32) (harg4 : arg4.IsWhole)
    (x0 : Vec F S400x64 .bf16) (x1 : Vec F S10000x64 .bf16) (x2 : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__agg_body i arg1 harg1 arg2 harg2 arg3 harg3 arg4 harg4) K := by
  simp only [cc2__agg_body_eq_skeleton]; unfold cc2__agg_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of region 2 on core `c`: the array of normalised rows is read through windows 0 and 1, which hold
    it at the left and the right half of the full share; the other input and the output are held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: three kernel regions one after the other, no host operation between them.
  The contents of the core's buffers at each boundary are a fold from the launch memory: region 0 changes only
  the array of projected features; region 1 only the normalised rows and Y; region 2 only the result. Each region is
  entered holding every unscoped buffer at the boundary's contents, the generator register at some state, and nothing
  owed. Region 2 reads the normalised rows through two windows, so at its entry that array's full share is split in
  two halves, and at its exit the halves are joined again.
-/
import proofs.«131982_g23313082482977_cont_8to1_1054_4_alg».proof.Proof.Gen.Kernel.Launch
import proofs.«131982_g23313082482977_cont_8to1_1054_4_alg».proof.Proof.Gen.Kernel.Skeleton
import proofs.«131982_g23313082482977_cont_8to1_1054_4_alg».proof.Proof.Gen.Kernel.Points
import proofs.«131982_g23313082482977_cont_8to1_1054_4_alg».proof.Proof.K.R0
import proofs.«131982_g23313082482977_cont_8to1_1054_4_alg».proof.Proof.K.R1
import proofs.«131982_g23313082482977_cont_8to1_1054_4_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b

/-- After region 0: its arrays at what the pipeline leaves (the inputs as entered, each output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves (the inputs as entered, each output's write-backs folded),
    every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: only the result array changes (the two windows on the normalised rows and the window on Y are
    inputs, never written). -/
def W3 (c : Dev nD) : Valuation τ sig (Elt F) :=
  Function.update (W2 m c) (Proc.devRef .tc main_v2) ((dat2 (V2 m) c).arrAt 3 cfg2.N)
abbrev V3 : (c : Dev nD) → (b : Ref sig .tc) → Buf (Elt F) ((c : Thread nD τ).loc b) := fun c b => W3 m c b
theorem W3_main_v2 (c : Dev nD) : W3 m c (Proc.devRef .tc main_v2) = (dat2 (V2 m) c).arrAt 3 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and what rides beside the buffers -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## Regions 0 and 1 as segments -/

set_option backward.isDefEq.respectTransparency.types false in
/-- Region 0 over the thread state: entered from every unscoped buffer at the contents before it, left at the contents
    after it. Its arrays are split out of the unscoped buffers at entry and put back at exit; the generator register goes
    into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers at entry and put back at exit; the generator register goes
    into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: the array read through two windows -/

/-- The buffers behind region 2's windows, one by one: three buffers for four windows. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v1_0) ↦{fullShare} V main_v1_0) ∗ (((c : Thread nD τ).loc main_v1_1) ↦{fullShare} V main_v1_1)
          ∗ (((c : Thread nD τ).loc main_v2) ↦{fullShare} V main_v2)) := by
  unfold Pipeline.arrBufs
  exact bigSep_eq_bigSepL_of_eq [main_v1_0, main_v1_1, main_v2] (by decide) (by decide) _

/-- Region 2's arrays as its proof data hold them, window by window: the first two windows hold the two halves of
    one buffer. -/
theorem arrays2_eq (V : (c : Dev nD) → (b : Ref sig .tc) → Buf (Elt F) ((c : Thread nD τ).loc b)) (c : Dev nD)
    (A : (w : Fin cfg2.W) → Buf (Elt F) ((cfg2.win w).arr.view.loc (c : Thread nD τ))) :
    ((dat2 V c).arrays A : sProp 𝕄)
      = iprop((((c : Thread nD τ).loc main_v1_0) ↦{fullShare.left} A 0) ∗ (((c : Thread nD τ).loc main_v1_0) ↦{fullShare.right} A 1)
          ∗ (((c : Thread nD τ).loc main_v1_1) ↦{fullShare} A 2) ∗ (((c : Thread nD τ).loc main_v2) ↦{fullShare} A 3)) := by
  unfold Dat.arrays
  rw [bigSep_W2, (arr_whole2 0).set_eq_univ, (arr_whole2 2).set_eq_univ, (arr_whole2 3).set_eq_univ]
  rfl

/-- When the two windows on the shared buffer hold the same contents, the proof data's arrays ARE the three buffers
    whole: the two half shares of the shared buffer compose to its full share. -/
theorem arrays2_iff (V : (c : Dev nD) → (b : Ref sig .tc) → Buf (Elt F) ((c : Thread nD τ).loc b)) (c : Dev nD)
    (A : (w : Fin cfg2.W) → Buf (Elt F) ((cfg2.win w).arr.view.loc (c : Thread nD τ)))
    (V' : (b : Ref sig .tc) → Buf (Elt F) ((c : Thread nD τ).loc b))
    (h0 : A 0 = V' main_v1_0) (h1 : A 1 = V' main_v1_0) (h2 : A 2 = V' main_v1_1) (h3 : A 3 = V' main_v2) :
    ((dat2 V c).arrays A : sProp 𝕄) ⊣⊢ Pipeline.arrBufs (Ix := Unit) (Name := ℕ) (U := UR sig nD τ) (Lvl := ℕ) spec2 c V' := by
  rw [arrays2_eq, arrBufs2_eq, h0, h1, h2, h3]
  have hs : (((c : Thread nD τ).loc main_v1_0) ↦{fullShare} V' main_v1_0 : sProp 𝕄)
      ⊣⊢ iprop((((c : Thread nD τ).loc main_v1_0) ↦{fullShare.left} V' main_v1_0) ∗ (((c : Thread nD τ).loc main_v1_0) ↦{fullShare.right} V' main_v1_0)) :=
    pointsTo_share (PosShare.mem_left_op_right fullShare)
  constructor
  · iintro ⟨H0, H1, H2, H3⟩
    isplitl [H0 H1]
    · iapply hs.2; isplitl [H0] <;> iassumption
    isplitl [H2] <;> iassumption
  · iintro ⟨H0, H2, H3⟩
    ihave H := hs.1 $$ H0
    icases H with ⟨Ha, Hb⟩
    isplitl [Ha]; · iexact Ha
    isplitl [Hb]; · iexact Hb
    isplitl [H2] <;> iassumption

/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

theorem V3_of_ne (c : Dev nD) (b : Ref sig .tc) (hb : b ≠ main_v2) : V3 m c b = V2 m c b := W3_of_ne m c b hb

set_option backward.isDefEq.respectTransparency.types false in
/-- Region 2 over the thread state. At entry the buffer of normalised rows, held whole, is split into the two half
    shares its two windows hold; at exit both windows still hold what was entered (they are inputs), the halves are
    joined, and only the result array has changed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit : (unscopedBufs c (V2 m c) : sProp 𝕄)
        ⊢ iprop((pdats m 2 c).arrays ((pdats m 2 c).arrAt · 0) ∗ Pipeline.unscopedRest (Ix := Unit) (Name := ℕ) (U := UR sig nD τ) (Lvl := ℕ) spec2 c (V2 m c)) := by
      rw [Pipeline.unscopedBufs_split₀ (Pipeline.pin (pcfgs (F := F)) adm) 2 winFacts₀2.arr_unscoped c (V2 m c)]
      exact sep_mono (arrays2_iff (V2 m) c _ (V2 m c) rfl rfl rfl rfl).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (V2 m c))
        ⊢ (unscopedBufs c (V3 m c) : sProp 𝕄) := by
      rw [Pipeline.unscopedBufs_split₀ (Pipeline.pin (pcfgs (F := F)) adm) 2 winFacts₀2.arr_unscoped c (V3 m c)]
      refine sep_mono (arrays2_iff (V2 m) c _ (V3 m c) ?_ ?_ ?_ ?_).1 (Entails.of_eq ?_)
      · exact ((dat2 (V2 m) c).arrAt_in 0 rfl _).trans (V3_of_ne m c main_v1_0 (by decide)).symm
      · exact ((dat2 (V2 m) c).arrAt_in 1 rfl _).trans (V3_of_ne m c main_v1_0 (by decide)).symm
      · exact ((dat2 (V2 m) c).arrAt_in 2 rfl _).trans (V3_of_ne m c main_v1_1 (by decide)).symm
      · exact (W3_main_v2 m c).symm
      · show (Pipeline.unscopedRest (Ix := Unit) (Name := ℕ) (U := UR sig nD τ) (Lvl := ℕ) spec2 c (V2 m c) : sProp 𝕄) = Pipeline.unscopedRest (Ix := Unit) (Name := ℕ) (U := UR sig nD τ) (Lvl := ℕ) spec2 c (V3 m c)
        rw [unscopedRest2_eq, unscopedRest2_eq, V3_of_ne m c main_arg0 (by decide), V3_of_ne m c main_arg1 (by decide),
          V3_of_ne m c main_arg2 (by decide), V3_of_ne m c main_arg3 (by decide), V3_of_ne m c main_v0 (by decide)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three regions, and the launch -/

abbrev segs : List (Pipeline.Seg (pcfgs (F := F)) adm (pdats m) () defs₀ 𝒱₀ L lv) :=
  [.region (reg0 m), .region (reg1 m), .region (reg2 m)]

theorem main_run (c : Dev nD) : main (F := F) c = Pipeline.Seg.run (segs m) :=
  main_segs adm (pdats m) () 𝒱₀ L lv (reg0 m) (reg1 m) (reg2 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and in every final state each unscoped buffer of each core holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched, and what each region's outputs are read back as -/

theorem W1_of_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hin _).trans (A_eq0 (V0 m) c w))
theorem W2_of_in (c : Dev nD) (w : Fin cfg1.W) (hin : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w hin _).trans (A_eq1 (V1 m) c w))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of_in m c 0 rfl
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_in m c 0 rfl
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_in m c 1 rfl
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_in m c 2 rfl
    _ = W0 m c (Proc.devRef .tc main_arg3) := W1_of_ne m c main_arg3 (by decide)
    _ = m ((c : Thread nD τ).loc main_arg3) := rfl

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KI.R0.lean ====
/-
  Region 0 of the program: the first matrix product, h1 = feat · W1, computed 2000 rows at a time over a grid of
  five points. Stated at a parameter `V`, the contents of the core's buffers when the region is entered:
  each window's block at a point is read off `V`; the body stores, into the whole output block, the product of
  the point's 2000 × 256 block of the left operand with the whole 256 × 64 right operand; the right operand's
  window is fetched at the first point only and found unchanged at the later ones.
-/
import proofs.«131982_g23313082482977_cont_8to1_1054_4_alg».proof.Proof.Gen.KernelIdeal.Launch
import proofs.«131982_g23313082482977_cont_8to1_1054_4_alg».proof.Proof.Gen.KernelIdeal.Skeleton
import proofs.«131982_g23313082482977_cont_8to1_1054_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point, though it is fetched only at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x256 := Rect.unit (s := S2000x256) ![0, 0] S2000x256.size inb_S2000x256_S2000x256_0_0
abbrev r0_1 : Rect S256x64 := Rect.unit (s := S256x64) ![0, 0] S256x64.size inb_S256x64_S256x64_0_0
abbrev r0_2 : Rect S2000x64 := Rect.unit (s := S2000x64) ![0, 0] S2000x64.size inb_S2000x64_S2000x64_0_0

/-- What the body leaves in the output block: its one store, the product of the two blocks it loaded. -/
def out0_2 (x0 : Vec F S2000x256 .f32) (x1 : Vec F S256x64 .f32) : Vec F S2000x64 .f32 :=
  View.canon [⟨r0_2, k0_pay1 (View.ld x0 r0_0) (View.ld x1 r0_1)⟩]

/-- The one store covers the output block. -/
theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

set_option maxHeartbeats 1000000 in
/-- The body on whole staging memrefs: the two inputs' contents are kept, the output's ends at `out0_2` of them. -/
theorem sound_kernel0 (c : Dev nD) (E : Set ℕ) (i : grid0.Coords)
    (arg1 : Memref sig .tc .vmem S2000x256 .f32) (harg1 : arg1.IsWhole) (arg2 : Memref sig .tc .vmem S256x64 .f32) (harg2 : arg2.IsWhole)
    (arg3 : Memref sig .tc .vmem S2000x64 .f32) (harg3 : arg3.IsWhole)
    (x0 : Vec F S2000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__h1_body i arg1 harg1 arg2 harg2 arg3 harg3) K := by
  simp only [cc0__h1_body_eq_skeleton]; unfold cc0__h1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as found; after the body each input's buffer at its block and
    the output's at the product of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program, 400 rows at a time over a grid of 25 points: h = max(adj · h1, 0) for the point's rows,
  then two results. The first is h with each row divided by max(√(Σ h²), ε); the second is h · W2. Stated at a parameter
  `V`, the contents of the core's buffers when the region is entered. The 400 × 10000 block of adj is fetched at
  every point; h1 and W2 are fetched whole at the first point only and found unchanged at the later ones.
-/
import proofs.«131982_g23313082482977_cont_8to1_1054_4_alg».proof.Proof.Gen.KernelIdeal.Launch
import proofs.«131982_g23313082482977_cont_8to1_1054_4_alg».proof.Proof.Gen.KernelIdeal.Skeleton
import proofs.«131982_g23313082482977_cont_8to1_1054_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S64x256 := Rect.unit (s := S64x256) ![0, 0] S64x256.size inb_S64x256_S64x256_0_0
abbrev r1_3 : Rect S400x64 := Rect.unit (s := S400x64) ![0, 0] S400x64.size inb_S400x64_S400x64_0_0
abbrev r1_4 : Rect S400x256 := Rect.unit (s := S400x256) ![0, 0] S400x256.size inb_S400x256_S400x256_0_0

/-- What the body leaves in the first output block: the row-normalised h of the point's rows. -/
def out1_3 (x0 : Vec F S400x10000 .f32) (x1 : Vec F S10000x64 .f32) : Vec F S400x64 .bf16 :=
  View.canon [⟨r1_3, k1_pay2 (View.ld x0 r1_0) (View.ld x1 r1_1)⟩]
/-- What the body leaves in the second output block: h · W2 for the point's rows. -/
def out1_4 (x0 : Vec F S400x10000 .f32) (x1 : Vec F S10000x64 .f32) (x2 : Vec F S64x256 .f32) : Vec F S400x256 .bf16 :=
  View.canon [⟨r1_4, k1_pay3 (View.ld x0 r1_0) (View.ld x1 r1_1) (View.ld x2 r1_2)⟩]

theorem cover1_3 (p0 : Vec F S400x64 .bf16) (y : S400x64.Idx) :
    ∃ pc ∈ ([⟨r1_3, p0⟩] : List (View.Piece (Elt F) S400x64 .bf16)), y ∈ pc.1.set :=
  View.cover_of_tiled [⟨r1_3, p0⟩] S400x64.size (by rfl) y
theorem cover1_4 (p0 : Vec F S400x256 .bf16) (y : S400x256.Idx) :
    ∃ pc ∈ ([⟨r1_4, p0⟩] : List (View.Piece (Elt F) S400x256 .bf16)), y ∈ pc.1.set :=
  View.cover_of_tiled [⟨r1_4, p0⟩] S400x256.size (by rfl) y

set_option maxHeartbeats 1000000 in
/-- The body on whole staging memrefs: the three inputs' contents are kept, each output's ends at its `out1_W` of them. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S64x256 .f32) (harg3 : arg3.IsWhole) (arg4 : Memref sig .tc .vmem S400x64 .bf16) (harg4 : arg4.IsWhole)
    (arg5 : Memref sig .tc .vmem S400x256 .bf16) (harg5 : arg5.IsWhole)
    (x0 : Vec F S400x10000 .f32) (x1 : Vec F S10000x64 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__h_body i arg1 harg1 arg2 harg2 arg3 harg3 arg4 harg4 arg5 harg5) K := by
  simp only [cc1__h_body_eq_skeleton]; unfold cc1__h_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the program, 400 rows at a time over a grid of 25 points. For the point's rows i it forms the
  similarities sim(i, j) = Σₖ hn(i, k) · hn(j, k) against every row j, drops those below 0.6 to zero, and stores
  (Σⱼ da(i, j) · y(j, ·)) / max(Σⱼ da(i, j), ε). The normalised rows hn reach the body twice: 400 rows at a time
  through one window and whole through another. The two windows read ONE array, so the proof data hold it at two
  complementary half shares. Stated at a parameter `V`, the contents of the core's buffers when the region is entered.
-/
import proofs.«131982_g23313082482977_cont_8to1_1054_4_alg».proof.Proof.Gen.KernelIdeal.Launch
import proofs.«131982_g23313082482977_cont_8to1_1054_4_alg».proof.Proof.Gen.KernelIdeal.Skeleton
import proofs.«131982_g23313082482977_cont_8to1_1054_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x64 := Rect.unit (s := S400x64) ![0, 0] S400x64.size inb_S400x64_S400x64_0_0
abbrev r2_1 : Rect S10000x64 := Rect.unit (s := S10000x64) ![0, 0] S10000x64.size inb_S10000x64_S10000x64_0_0
abbrev r2_2 : Rect S10000x256 := Rect.unit (s := S10000x256) ![0, 0] S10000x256.size inb_S10000x256_S10000x256_0_0
abbrev r2_3 : Rect S400x256 := Rect.unit (s := S400x256) ![0, 0] S400x256.size inb_S400x256_S400x256_0_0

/-- What the body leaves in the output block: the thresholded similarities' weighted sum of y, over their sum. -/
def out2_3 (x0 : Vec F S400x64 .bf16) (x1 : Vec F S10000x64 .bf16) (x2 : Vec F S10000x256 .bf16) : Vec F S400x256 .f32 :=
  View.canon [⟨r2_3, k2_pay1 (View.ld x0 r2_0) (View.ld x1 r2_1) (View.ld x2 r2_2)⟩]

theorem cover2_3 (p0 : Vec F S400x256 .f32) (y : S400x256.Idx) :
    ∃ pc ∈ ([⟨r2_3, p0⟩] : List (View.Piece (Elt F) S400x256 .f32)), y ∈ pc.1.set :=
  View.cover_of_tiled [⟨r2_3, p0⟩] S400x256.size (by rfl) y

set_option maxHeartbeats 1000000 in
/-- The body on whole staging memrefs: the three inputs' contents are kept, the output's ends at `out2_3` of them. -/
theorem sound_kernel2 (c : Dev nD) (E : Set ℕ) (i : grid2.Coords)
    (arg1 : Memref sig .tc .vmem S400x64 .bf16) (harg1 : arg1.IsWhole) (arg2 : Memref sig .tc .vmem S10000x64 .bf16) (harg2 : arg2.IsWhole)
    (arg3 : Memref sig .tc .vmem S10000x256 .bf16) (harg3 : arg3.IsWhole) (arg4 : Memref sig .tc .vmem S400x256 .f32) (harg4 : arg4.IsWhole)
    (x0 : Vec F S400x64 .bf16) (x1 : Vec F S10000x64 .bf16) (x2 : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__agg_body i arg1 harg1 arg2 harg2 arg3 harg3 arg4 harg4) K := by
  simp only [cc2__agg_body_eq_skeleton]; unfold cc2__agg_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of region 2 on core `c`: the array of normalised rows is read through windows 0 and 1, which hold
    it at the left and the right half of the full share; the other input and the output are held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: three kernel regions one after the other, no host operation between them.
  The contents of the core's buffers at each boundary are a fold from the launch memory: region 0 changes only
  the array of projected features; region 1 only the normalised rows and Y; region 2 only the result. Each region is
  entered holding every unscoped buffer at the boundary's contents, the generator register at some state, and nothing
  owed. Region 2 reads the normalised rows through two windows, so at its entry that array's full share is split in
  two halves, and at its exit the halves are joined again.
-/
import proofs.«131982_g23313082482977_cont_8to1_1054_4_alg».proof.Proof.Gen.KernelIdeal.Launch
import proofs.«131982_g23313082482977_cont_8to1_1054_4_alg».proof.Proof.Gen.KernelIdeal.Skeleton
import proofs.«131982_g23313082482977_cont_8to1_1054_4_alg».proof.Proof.Gen.KernelIdeal.Points
import proofs.«131982_g23313082482977_cont_8to1_1054_4_alg».proof.Proof.KI.R0
import proofs.«131982_g23313082482977_cont_8to1_1054_4_alg».proof.Proof.KI.R1
import proofs.«131982_g23313082482977_cont_8to1_1054_4_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b

/-- After region 0: its arrays at what the pipeline leaves (the inputs as entered, each output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves (the inputs as entered, each output's write-backs folded),
    every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: only the result array changes (the two windows on the normalised rows and the window on Y are
    inputs, never written). -/
def W3 (c : Dev nD) : Valuation τ sig (Elt F) :=
  Function.update (W2 m c) (Proc.devRef .tc main_v2) ((dat2 (V2 m) c).arrAt 3 cfg2.N)
abbrev V3 : (c : Dev nD) → (b : Ref sig .tc) → Buf (Elt F) ((c : Thread nD τ).loc b) := fun c b => W3 m c b
theorem W3_main_v2 (c : Dev nD) : W3 m c (Proc.devRef .tc main_v2) = (dat2 (V2 m) c).arrAt 3 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and what rides beside the buffers -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## Regions 0 and 1 as segments -/

set_option backward.isDefEq.respectTransparency.types false in
/-- Region 0 over the thread state: entered from every unscoped buffer at the contents before it, left at the contents
    after it. Its arrays are split out of the unscoped buffers at entry and put back at exit; the generator register goes
    into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers at entry and put back at exit; the generator register goes
    into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: the array read through two windows -/

/-- The buffers behind region 2's windows, one by one: three buffers for four windows. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v1_0) ↦{fullShare} V main_v1_0) ∗ (((c : Thread nD τ).loc main_v1_1) ↦{fullShare} V main_v1_1)
          ∗ (((c : Thread nD τ).loc main_v2) ↦{fullShare} V main_v2)) := by
  unfold Pipeline.arrBufs
  exact bigSep_eq_bigSepL_of_eq [main_v1_0, main_v1_1, main_v2] (by decide) (by decide) _

/-- Region 2's arrays as its proof data hold them, window by window: the first two windows hold the two halves of
    one buffer. -/
theorem arrays2_eq (V : (c : Dev nD) → (b : Ref sig .tc) → Buf (Elt F) ((c : Thread nD τ).loc b)) (c : Dev nD)
    (A : (w : Fin cfg2.W) → Buf (Elt F) ((cfg2.win w).arr.view.loc (c : Thread nD τ))) :
    ((dat2 V c).arrays A : sProp 𝕄)
      = iprop((((c : Thread nD τ).loc main_v1_0) ↦{fullShare.left} A 0) ∗ (((c : Thread nD τ).loc main_v1_0) ↦{fullShare.right} A 1)
          ∗ (((c : Thread nD τ).loc main_v1_1) ↦{fullShare} A 2) ∗ (((c : Thread nD τ).loc main_v2) ↦{fullShare} A 3)) := by
  unfold Dat.arrays
  rw [bigSep_W2, (arr_whole2 0).set_eq_univ, (arr_whole2 2).set_eq_univ, (arr_whole2 3).set_eq_univ]
  rfl

/-- When the two windows on the shared buffer hold the same contents, the proof data's arrays ARE the three buffers
    whole: the two half shares of the shared buffer compose to its full share. -/
theorem arrays2_iff (V : (c : Dev nD) → (b : Ref sig .tc) → Buf (Elt F) ((c : Thread nD τ).loc b)) (c : Dev nD)
    (A : (w : Fin cfg2.W) → Buf (Elt F) ((cfg2.win w).arr.view.loc (c : Thread nD τ)))
    (V' : (b : Ref sig .tc) → Buf (Elt F) ((c : Thread nD τ).loc b))
    (h0 : A 0 = V' main_v1_0) (h1 : A 1 = V' main_v1_0) (h2 : A 2 = V' main_v1_1) (h3 : A 3 = V' main_v2) :
    ((dat2 V c).arrays A : sProp 𝕄) ⊣⊢ Pipeline.arrBufs (Ix := Unit) (Name := ℕ) (U := UR sig nD τ) (Lvl := ℕ) spec2 c V' := by
  rw [arrays2_eq, arrBufs2_eq, h0, h1, h2, h3]
  have hs : (((c : Thread nD τ).loc main_v1_0) ↦{fullShare} V' main_v1_0 : sProp 𝕄)
      ⊣⊢ iprop((((c : Thread nD τ).loc main_v1_0) ↦{fullShare.left} V' main_v1_0) ∗ (((c : Thread nD τ).loc main_v1_0) ↦{fullShare.right} V' main_v1_0)) :=
    pointsTo_share (PosShare.mem_left_op_right fullShare)
  constructor
  · iintro ⟨H0, H1, H2, H3⟩
    isplitl [H0 H1]
    · iapply hs.2; isplitl [H0] <;> iassumption
    isplitl [H2] <;> iassumption
  · iintro ⟨H0, H2, H3⟩
    ihave H := hs.1 $$ H0
    icases H with ⟨Ha, Hb⟩
    isplitl [Ha]; · iexact Ha
    isplitl [Hb]; · iexact Hb
    isplitl [H2] <;> iassumption

/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

theorem V3_of_ne (c : Dev nD) (b : Ref sig .tc) (hb : b ≠ main_v2) : V3 m c b = V2 m c b := W3_of_ne m c b hb

set_option backward.isDefEq.respectTransparency.types false in
/-- Region 2 over the thread state. At entry the buffer of normalised rows, held whole, is split into the two half
    shares its two windows hold; at exit both windows still hold what was entered (they are inputs), the halves are
    joined, and only the result array has changed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit : (unscopedBufs c (V2 m c) : sProp 𝕄)
        ⊢ iprop((pdats m 2 c).arrays ((pdats m 2 c).arrAt · 0) ∗ Pipeline.unscopedRest (Ix := Unit) (Name := ℕ) (U := UR sig nD τ) (Lvl := ℕ) spec2 c (V2 m c)) := by
      rw [Pipeline.unscopedBufs_split₀ (Pipeline.pin (pcfgs (F := F)) adm) 2 winFacts₀2.arr_unscoped c (V2 m c)]
      exact sep_mono (arrays2_iff (V2 m) c _ (V2 m c) rfl rfl rfl rfl).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (V2 m c))
        ⊢ (unscopedBufs c (V3 m c) : sProp 𝕄) := by
      rw [Pipeline.unscopedBufs_split₀ (Pipeline.pin (pcfgs (F := F)) adm) 2 winFacts₀2.arr_unscoped c (V3 m c)]
      refine sep_mono (arrays2_iff (V2 m) c _ (V3 m c) ?_ ?_ ?_ ?_).1 (Entails.of_eq ?_)
      · exact ((dat2 (V2 m) c).arrAt_in 0 rfl _).trans (V3_of_ne m c main_v1_0 (by decide)).symm
      · exact ((dat2 (V2 m) c).arrAt_in 1 rfl _).trans (V3_of_ne m c main_v1_0 (by decide)).symm
      · exact ((dat2 (V2 m) c).arrAt_in 2 rfl _).trans (V3_of_ne m c main_v1_1 (by decide)).symm
      · exact (W3_main_v2 m c).symm
      · show (Pipeline.unscopedRest (Ix := Unit) (Name := ℕ) (U := UR sig nD τ) (Lvl := ℕ) spec2 c (V2 m c) : sProp 𝕄) = Pipeline.unscopedRest (Ix := Unit) (Name := ℕ) (U := UR sig nD τ) (Lvl := ℕ) spec2 c (V3 m c)
        rw [unscopedRest2_eq, unscopedRest2_eq, V3_of_ne m c main_arg0 (by decide), V3_of_ne m c main_arg1 (by decide),
          V3_of_ne m c main_arg2 (by decide), V3_of_ne m c main_arg3 (by decide), V3_of_ne m c main_v0 (by decide)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three regions, and the launch -/

abbrev segs : List (Pipeline.Seg (pcfgs (F := F)) adm (pdats m) () defs₀ 𝒱₀ L lv) :=
  [.region (reg0 m), .region (reg1 m), .region (reg2 m)]

theorem main_run (c : Dev nD) : main (F := F) c = Pipeline.Seg.run (segs m) :=
  main_segs adm (pdats m) () 𝒱₀ L lv (reg0 m) (reg1 m) (reg2 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and in every final state each unscoped buffer of each core holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched, and what each region's outputs are read back as -/

theorem W1_of_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hin _).trans (A_eq0 (V0 m) c w))
theorem W2_of_in (c : Dev nD) (w : Fin cfg1.W) (hin : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w hin _).trans (A_eq1 (V1 m) c w))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of_in m c 0 rfl
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_in m c 0 rfl
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_in m c 1 rfl
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_in m c 2 rfl
    _ = W0 m c (Proc.devRef .tc main_arg3) := W1_of_ne m c main_arg3 (by decide)
    _ = m ((c : Thread nD τ).loc main_arg3) := rfl

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Spec.lean ====
/-
  The mathematics both programs compute, as functions on matrices of extended reals, entry by entry.

  With H = max(adj · (feat · W1), 0), each row of H is divided by n(r) = max(√(Σₖ H(r,k)²), ε); the similarity of rows
  i and j is the inner product of the normalised rows; similarities below the threshold θ are replaced by zero, giving
  d(i, j). The kernel returns (Σⱼ d(i,j) · Y(j,·)) / max(Σⱼ d(i,j), ε) with Y = H · W2; the reference returns
  Σⱼ (d(i,j) / max(Σⱼ |d(i,j)|, ε)) · Y(j,·). Every d(i,j) is zero or at least θ > 0, so |d| = d, and over the reals a
  common nonzero divisor moves across a finite sum; on the extended reals that needs every entry to be finite.
-/
import Idealize.ShloMosaic.Lib.ValueIdx
import Idealize.ShloMosaic.PureOps.Ideal.Laws

noncomputable section

namespace Cert.Spec

open Idealize.ShloMosaic Idealize.ShloMosaic.ValueIdx
open scoped BigOperators

/-- An a × b matrix of extended reals, indexed as the printed programs index a rank-2 array. -/
abbrev Mat (a b : Nat) : Type := (⟨2, ![a, b]⟩ : Shape).Idx → EReal

/-- The floor ε under both normalisations: the value of the word the two programs share. -/
def eps : EReal := Ideal.ofBits .f32 0x2B8CBCCC#32
/-- The similarity threshold θ: the value of the word the two programs share. -/
def thr : EReal := Ideal.ofBits .f32 0x3F19999A#32

/-- The matrix product. -/
def mm {M K N : Nat} (A : Mat M K) (B : Mat K N) : Mat M N :=
  fun j => ∑ k : Fin K, A (ix2 (j 0) k) * B (ix2 k (j 1))

/-- The hidden layer: the rectified product of the adjacency with the projected features. -/
def hid (adj : Mat 10000 10000) (h1 : Mat 10000 64) : Mat 10000 64 :=
  fun j => max (mm adj h1 j) 0

/-- A row's Euclidean norm, floored at ε. -/
def rnorm (H : Mat 10000 64) (r : Fin 10000) : EReal :=
  max (Ideal.sqrt (∑ k : Fin 64, H (ix2 r k) * H (ix2 r k))) eps

/-- The rows divided by their floored norms. -/
def hnorm (H : Mat 10000 64) : Mat 10000 64 :=
  fun j => Ideal.div (H j) (rnorm H (j 0))

/-- The similarity of rows i and j. -/
def sim (N : Mat 10000 64) (i j : Fin 10000) : EReal :=
  ∑ k : Fin 64, N (ix2 i k) * N (ix2 j k)

/-- The thresholded similarity. -/
def dadj (N : Mat 10000 64) (i j : Fin 10000) : EReal :=
  if sim N i j < thr then 0 else sim N i j

/-- The kernel's row weight: the sum of the thresholded similarities, floored at ε. -/
def l1K (N : Mat 10000 64) (i : Fin 10000) : EReal :=
  max (∑ j : Fin 10000, dadj N i j) eps

/-- The reference's row weight: the sum of their absolute values, floored at ε. -/
def l1R (N : Mat 10000 64) (i : Fin 10000) : EReal :=
  max (∑ j : Fin 10000, max (dadj N i j) (-(dadj N i j))) eps

/-- The kernel's aggregation: the weighted sum, then the division. -/
def outK (N : Mat 10000 64) (Y : Mat 10000 256) : Mat 10000 256 :=
  fun j => Ideal.div (∑ k : Fin 10000, dadj N (j 0) k * Y (ix2 k (j 1))) (l1K N (j 0))

/-- The reference's aggregation: the division, then the weighted sum. -/
def outR (N : Mat 10000 64) (Y : Mat 10000 256) : Mat 10000 256 :=
  fun j => ∑ k : Fin 10000, Ideal.div (dadj N (j 0) k) (l1R N (j 0)) * Y (ix2 k (j 1))

/-- The kernel's result as one function of the four inputs. -/
def kernelFn (feat : Mat 10000 256) (adj : Mat 10000 10000) (w1 : Mat 256 64) (w2 : Mat 64 256) : Mat 10000 256 :=
  outK (hnorm (hid adj (mm feat w1))) (mm (hid adj (mm feat w1)) w2)

/-- The reference's result as one function of the four inputs. -/
def refFn (feat : Mat 10000 256) (adj : Mat 10000 10000) (w1 : Mat 256 64) (w2 : Mat 64 256) : Mat 10000 256 :=
  outR (hnorm (hid adj (mm feat w1))) (mm (hid adj (mm feat w1)) w2)

end Cert.Spec

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KI.V0.lean ====
/-
  What region 0 leaves in its output array, at the extended reals: the product of the two arrays it reads, whatever
  they hold when the region is entered. Each of the five points writes back 2000 rows of that product, and the five
  blocks tile the array.
-/
import proofs.«131982_g23313082482977_cont_8to1_1054_4_alg».proof.Proof.KI.R0
import proofs.«131982_g23313082482977_cont_8to1_1054_4_alg».proof.Proof.Spec
import proofs.«131982_g23313082482977_cont_8to1_1054_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (Mat)

/-- The whole-block rectangles of the body start at the origin on both axes. -/
theorem origin2 : (![0, 0] : Fin 2 → Nat) = fun _ => 0 := funext fun a => by fin_cases a <;> rfl

/-- The body's result at row p, column q of its block: the sum over the inner index k of the left block's
    entry (p, k) times the right block's entry (k, q). -/
theorem prod_block_apply (x0 : Vec Ideal S2000x256 .f32) (x1 : Vec Ideal S256x64 .f32) (p : Fin 2000) (q : Fin 64) :
    k0_pay1 x0 x1 (ix2 p q) = ∑ k : Fin 256, x0 (ix2 p k) * x1 (ix2 k q) := by
  show FloatOps.matmul (DotDims.plain 2000 256 64) none x0 x1 (constant (F := Ideal) (⟨2, ![2000, 64]⟩ : Shape) .f32 0x00000000#32) (ix2 p q) = _
  rw [Cert.PlainDot.matmul_zero_apply]

/-- Where the three windows' blocks sit at point t: the left operand's and the output's are the t-th blocks of
    2000 rows, all columns; the right operand's is the whole array. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the region finds them. -/
theorem wrote_back (c : Dev nD) (t : Fin cfg0.N) :
    (dat0 (F := Ideal) V c).flushed 2 t
      = ((cfg0.win 2).blk t).view.read (Elt Ideal)
          (Cert.Spec.mm (M := 10000) (K := 256) (N := 64) (V c main_arg0 : Mat 10000 256) (V c main_arg2 : Mat 256 64)) := by
  show (cfg0.win 2).cut (grid0.coords t) ((dat0 (F := Ideal) V c).after 2 t) = _
  rw [after0_2]
  unfold out0_2
  rw [View.canon_unit_zero origin2]
  simp only [View.ld_unit_zero (S := S2000x256) origin2, View.ld_unit_zero (S := S256x64) origin2]
  obtain ⟨e00, e01, e10, e11, e20, e21⟩ := block_at t
  funext y
  obtain ⟨p, q, rfl⟩ : ∃ (p : Fin 2000) (q : Fin 64), y = ix2 p q := ⟨y 0, y 1, eq_ix2 y⟩
  show k0_pay1 (iblk0 V c 0 t) (iblk0 V c 1 t) (ix2 p q)
    = Cert.Spec.mm (M := 10000) (K := 256) (N := 64) (V c main_arg0 : Mat 10000 256) (V c main_arg2 : Mat 256 64)
        (((cfg0.win 2).blk t).view.emb (ix2 p q))
  rw [prod_block_apply]
  unfold Cert.Spec.mm
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  have both : ∀ (A : Mat 10000 256) (B : Mat 256 64),
      A (((cfg0.win 0).blk t).view.emb (ix2 p k)) * B (((cfg0.win 1).blk t).view.emb (ix2 k q))
        = A (ix2 ((((cfg0.win 2).blk t).view.emb (ix2 p q)) 0) k) * B (ix2 k ((((cfg0.win 2).blk t).view.emb (ix2 p q)) 1)) :=
    fun A B => congrArg₂ (· * ·) (congrArg A h0) (congrArg B h1)
  exact both (V c main_arg0) (V c main_arg2)

/-- An index of the output array is in point t's block iff each coordinate is in the block's range on its axis. -/
theorem mem_block (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Row r of the output array is written back by point r / 2000. -/
theorem tiled (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  refine ⟨⟨(i 0).val / 2000, by show (i 0).val / 2000 < 5; omega⟩, flush0_2 _, ?_⟩
  obtain ⟨-, -, -, -, e20, e21⟩ := block_at ⟨(i 0).val / 2000, by show (i 0).val / 2000 < 5; omega⟩
  rw [mem_block]
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 64 ≤ (i 1).val ∧ (i 1).val < win0_2.index _ (1 : Fin 2) * 64 + 64
    rw [e21]; omega

/-- After region 0 its output array holds the matrix product of its two input arrays. -/
theorem final0 (c : Dev nD) :
    (dat0 (F := Ideal) V c).arrAt 2 cfg0.N
      = Cert.Spec.mm (M := 10000) (K := 256) (N := 64) (V c main_arg0 : Mat 10000 256) (V c main_arg2 : Mat 256 64) :=
  (dat0 (F := Ideal) V c).arrAt_eq_of_cover 2 _ (fun t _ => wrote_back V c t) tiled

end Cert.KernelIdeal.Hand

end
-- ==== Proof.KI.V1a.lean ====
/-
  What region 1 leaves in its first output array, at the extended reals, as a function of the arrays it reads: with
  H the rectified product of the adjacency with the projected features, H with each row divided by its floored norm.
  Each of the 25 points writes back 400 rows, and the blocks tile the array.
-/
import proofs.«131982_g23313082482977_cont_8to1_1054_4_alg».proof.Proof.KI.R1
import proofs.«131982_g23313082482977_cont_8to1_1054_4_alg».proof.Proof.Spec
import proofs.«131982_g23313082482977_cont_8to1_1054_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (Mat)

variable (V : (c : Dev nD) → (b : Ref sig .tc) → Buf (Elt Ideal) ((c : Thread nD τ).loc b))

namespace RowNorm

/-! ## The body's arithmetic at one entry of the block -/

/-- The rectified product: entry (p, q) is the larger of zero and the inner product of row p of the left block
    with column q of the right operand. -/
theorem rect_apply (x0 : Vec Ideal S400x10000 .f32) (x1 : Vec Ideal S10000x64 .f32) (p : Fin 400) (q : Fin 64) :
    k1_pay1 x0 x1 (ix2 p q) = max (∑ k : Fin 10000, x0 (ix2 p k) * x1 (ix2 k q)) 0 := by
  unfold k1_pay1
  simp only [shapeCast_self]
  show max (FloatOps.matmul (DotDims.plain 400 10000 64) none x0 x1 (constant (⟨2, ![400, 64]⟩ : Shape) .f32 0x00000000#32) (ix2 p q))
      (Ideal.ofBits .f32 0x00000000#32) = _
  rw [Cert.PlainDot.matmul_zero_apply, Ideal.ofBits_zero_f32]

/-- Inserting lane k into the reduced index p gives entry (p, k). -/
theorem lane_lift (h : S400x64.Reduces [1] S400) (p : Fin 400) (k : Fin (S400x64.size 1)) :
    h.lift (ix1 p) k = ix2 p (⟨k.val, k.isLt⟩ : Fin 64) := by
  funext c; apply Fin.ext
  fin_cases c <;> rfl

/-- The sum of a row's squares, as the lane reduction computes it. -/
theorem lane_sum (v : FVec Ideal S400x64 .f32) (h : S400x64.Reduces [1] S400) (hφ : FKind.Formats .f32)
    (hacc : (0x00000000#32 : BitVec 32) = 0x00000000#32) (p : Fin 400) :
    multiReduction (F := Ideal) .add [1] S400 v 0x00000000#32 h hφ hacc (ix1 p) = ∑ k : Fin 64, v (ix2 p k) := by
  refine (Ideal.multiReduction_add_single v 0x00000000#32 h hφ hacc (ix1 p)).trans ?_
  exact Finset.sum_congr rfl fun k _ => congrArg v (lane_lift h p k)

/-- A length-400 array recast as a 400 × 1 column reads, at (p, u), the array at p. -/
theorem column_cast {α : Type} (x : S400.Idx → α) (h : S400.ShapeCasts S400x1) (p : Fin 400) (u : Fin 1) :
    shapeCast S400x1 x h (ix2 p u) = x (ix1 p) :=
  shapeCast_apply x h _ _ (by
    have hu : u.val = 0 := by omega
    rw [Shape.rowMajor_val_two, Shape.rowMajor_val_one]
    show p.val = p.val * 1 + u.val
    omega)

/-- A 400 × 1 column spread over 64 lanes reads, at (p, q), the column at p. -/
theorem column_spread {α : Type} (v : S400x1.Idx → α) (h : S400x1.Broadcasts S400x64) (p : Fin 400) (q : Fin 64) :
    broadcastTo S400x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The normalised block: entry (p, q) of the rectified product divided by the floored Euclidean norm of its row p. -/
theorem norm_apply (x0 : Vec Ideal S400x10000 .f32) (x1 : Vec Ideal S10000x64 .f32) (p : Fin 400) (q : Fin 64) :
    k1_pay2 x0 x1 (ix2 p q)
      = Ideal.div (k1_pay1 x0 x1 (ix2 p q))
          (max (Ideal.sqrt (∑ k : Fin 64, k1_pay1 x0 x1 (ix2 p k) * k1_pay1 x0 x1 (ix2 p k))) Cert.Spec.eps) := by
  unfold k1_pay2
  show Ideal.div (k1_pay1 x0 x1 (ix2 p q)) (broadcastTo S400x64 _ broadcasts_S400x1_S400x64 (ix2 p q)) = _
  rw [column_spread]
  show Ideal.div _ (max (Ideal.sqrt (shapeCast S400x1 _ shapeCasts_S400_S400x1 (ix2 p (0 : Fin 1)))) (Ideal.ofBits .f32 0x2B8CBCCC#32)) = _
  rw [column_cast, lane_sum]
  rfl

/-- When row p of the left block is row r of the matrix A and the right operand is B, entry (p, q) of the
    normalised block is entry (r, q) of the row-normalised rectified product of A and B. -/
theorem norm_eq_spec (A : Mat 10000 10000) (B : Mat 10000 64) (x0 : Vec Ideal S400x10000 .f32) (x1 : Vec Ideal S10000x64 .f32)
    (r : Fin 10000) (p : Fin 400) (q : Fin 64)
    (h0 : ∀ k : Fin 10000, x0 (ix2 p k) = A (ix2 r k))
    (h1 : ∀ (k : Fin 10000) (q' : Fin 64), x1 (ix2 k q') = B (ix2 k q')) :
    k1_pay2 x0 x1 (ix2 p q) = Cert.Spec.hnorm (Cert.Spec.hid A B) (ix2 r q) := by
  have hH : ∀ q' : Fin 64, k1_pay1 x0 x1 (ix2 p q') = Cert.Spec.hid A B (ix2 r q') := fun q' => by
    rw [rect_apply]
    show _ = max (∑ k : Fin 10000, A (ix2 r k) * B (ix2 k q')) 0
    exact congrArg (fun s => max s 0) (Finset.sum_congr rfl fun k _ => by rw [h0, h1])
  rw [norm_apply]
  simp only [hH]
  rfl

/-! ## From the blocks to the array -/

/-- The body's loads and its store are through whole-block rectangles at offset zero. -/
theorem offs_zero : (![0, 0] : Fin 2 → Nat) = fun _ => 0 := funext fun a => by fin_cases a <;> rfl

/-- The block index maps over the grid: the adjacency's row block moves with the output's, whose row block is the
    point's number; every other block index is zero. -/
theorem block_indices : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- What point t writes back is rows 400 t … 400 t + 399 of the row-normalised hidden layer. -/
theorem written_eq (c : Dev nD) (t : Fin cfg1.N) :
    (dat1 (F := Ideal) V c).flushed 3 t
      = ((cfg1.win 3).blk t).view.read (Elt Ideal)
          (Cert.Spec.hnorm (Cert.Spec.hid (V c main_arg1 : Mat 10000 10000) (V c main_v0 : Mat 10000 64))) := by
  show (cfg1.win 3).cut (grid1.coords t) ((dat1 (F := Ideal) V c).after 3 t) = _
  rw [after1_3]
  unfold out1_3
  rw [View.canon_unit_zero offs_zero]
  simp only [View.ld_unit_zero (S := S400x10000) offs_zero, View.ld_unit_zero (S := S10000x64) offs_zero]
  obtain ⟨e0, e1, e2, e3, e4, e5⟩ := block_indices t
  have ht : t.val < 25 := by have := t.isLt; have hN : cfg1.N = 25 := N_1; omega
  funext y
  obtain ⟨p, q, rfl⟩ : ∃ (p : Fin 400) (q : Fin 64), y = ix2 p q := ⟨y 0, y 1, eq_ix2 y⟩
  have hp : p.val < 400 := p.isLt
  have hi : (((cfg1.win 3).blk t).view.emb (ix2 p q) : S10000x64.Idx)
      = ix2 (⟨t.val * 400 + p.val, by omega⟩ : Fin 10000) q :=
    funext fun a => Fin.ext (by
      match a with
      | ⟨0, _⟩ => show win1_3.index t (0 : Fin 2) * 400 + 1 * p.val = t.val * 400 + p.val; omega
      | ⟨1, _⟩ => show win1_3.index t (1 : Fin 2) * 64 + 1 * q.val = q.val; omega)
  refine (norm_eq_spec (V c main_arg1) (V c main_v0) (iblk1 V c 0 t) (iblk1 V c 1 t)
    (⟨t.val * 400 + p.val, by omega⟩ : Fin 10000) p q ?_ ?_).trans
      (congrArg (Cert.Spec.hnorm (Cert.Spec.hid (V c main_arg1 : Mat 10000 10000) (V c main_v0 : Mat 10000 64))) hi.symm)
  · intro k
    show V c main_arg1 (((cfg1.win 0).blk t).view.emb (ix2 p k)) = V c main_arg1 (ix2 (⟨t.val * 400 + p.val, by omega⟩ : Fin 10000) k)
    refine congrArg (V c main_arg1) (funext fun a => Fin.ext ?_)
    match a with
    | ⟨0, _⟩ => show win1_0.index t (0 : Fin 2) * 400 + 1 * p.val = t.val * 400 + p.val; omega
    | ⟨1, _⟩ => show win1_0.index t (1 : Fin 2) * 10000 + 1 * k.val = k.val; omega
  · intro k q'
    show V c main_v0 (((cfg1.win 1).blk t).view.emb (ix2 k q')) = V c main_v0 (ix2 k q')
    refine congrArg (V c main_v0) (funext fun a => Fin.ext ?_)
    match a with
    | ⟨0, _⟩ => show win1_1.index t (0 : Fin 2) * 10000 + 1 * k.val = k.val; omega
    | ⟨1, _⟩ => show win1_1.index t (1 : Fin 2) * 64 + 1 * q'.val = q'.val; omega

/-- An index of the array is in point t's block exactly when each coordinate is in the block's range on its axis. -/
theorem mem_block (t : Fin cfg1.N) (i : S10000x64.Idx) :
    i ∈ ((cfg1.win 3).blk t).view.set
      ↔ ∀ a : Fin 2, win1_3.index t a * S400x64.size a ≤ (i a).val ∧ (i a).val < win1_3.index t a * S400x64.size a + S400x64.size a := by
  show i ∈ ((View.whole main_v1_0).slice (win1_3.rect t)).set ↔ _
  rw [View.set_slice_whole, Rect.mem_set_unit]
  exact Iff.rfl

/-- The 25 blocks of 400 rows tile the 10000 rows: row r is written back by point r / 400. -/
theorem covered (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  have hlt : (i 0).val / 400 < cfg1.N := lt_of_lt_of_eq (show (i 0).val / 400 < 25 by omega) hN.symm
  obtain ⟨e0, e1, e2, e3, e4, e5⟩ := block_indices ⟨(i 0).val / 400, hlt⟩
  refine ⟨⟨(i 0).val / 400, hlt⟩, flush1_3 _, ?_⟩
  rw [mem_block]
  intro a
  match a with
  | ⟨0, _⟩ =>
    show win1_3.index ⟨(i 0).val / 400, hlt⟩ (0 : Fin 2) * 400 ≤ (i 0).val
      ∧ (i 0).val < win1_3.index ⟨(i 0).val / 400, hlt⟩ (0 : Fin 2) * 400 + 400
    rw [e4]
    show (i 0).val / 400 * 400 ≤ (i 0).val ∧ (i 0).val < (i 0).val / 400 * 400 + 400
    omega
  | ⟨1, _⟩ =>
    show win1_3.index ⟨(i 0).val / 400, hlt⟩ (1 : Fin 2) * 64 ≤ (i 1).val
      ∧ (i 1).val < win1_3.index ⟨(i 0).val / 400, hlt⟩ (1 : Fin 2) * 64 + 64
    rw [e5]
    omega

end RowNorm

/-- After region 1 its first output array holds the row-normalised hidden layer. -/
theorem final1_3 (c : Dev nD) :
    (dat1 (F := Ideal) V c).arrAt 3 cfg1.N
      = Cert.Spec.hnorm (Cert.Spec.hid (V c main_arg1 : Mat 10000 10000) (V c main_v0 : Mat 10000 64)) :=
  (dat1 (F := Ideal) V c).arrAt_eq_of_cover 3 _ (fun t _ => RowNorm.written_eq V c t) RowNorm.covered

end Cert.KernelIdeal.Hand

end
-- ==== Proof.KI.V1b.lean ====
/-
  What region 1 leaves in its second output array, at the extended reals, as a function of the arrays it reads: with
  H the rectified product of the adjacency with the projected features, H times the second weight matrix.
  Each of the 25 points writes back 400 rows, and the blocks tile the array.
-/
import proofs.«131982_g23313082482977_cont_8to1_1054_4_alg».proof.Proof.KI.R1
import proofs.«131982_g23313082482977_cont_8to1_1054_4_alg».proof.Proof.Spec
import proofs.«131982_g23313082482977_cont_8to1_1054_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (Mat)

variable (V : (c : Dev nD) → (b : Ref sig .tc) → Buf (Elt Ideal) ((c : Thread nD τ).loc b))

namespace SecondOut

/-- The offsets of every whole-block rectangle are zero on both axes. -/
theorem off_zero1b : (![0, 0] : Fin 2 → Nat) = fun _ => 0 := funext fun a => by fin_cases a <;> rfl

/-- The rectified product of a block of rows with the whole second operand, at an index: the maximum of the
    row-by-column sum with zero. -/
theorem rect_prod_apply (x0 : Vec Ideal S400x10000 .f32) (x1 : Vec Ideal S10000x64 .f32) (p : Fin 400) (q : Fin 64) :
    k1_pay1 x0 x1 (ix2 p q) = max (∑ k : Fin 10000, x0 (ix2 p k) * x1 (ix2 k q)) 0 := by
  unfold k1_pay1
  show max (FloatOps.matmul (DotDims.plain 400 10000 64) none x0 (shapeCast S10000x64 x1 shapeCasts_S10000x64_S10000x64)
      (constant (F := Ideal) (⟨2, ![400, 64]⟩ : Shape) .f32 0x00000000#32) (ix2 p q)) (Ideal.ofBits .f32 0x00000000#32) = _
  rw [Cert.PlainDot.matmul_zero_apply, shapeCast_self, Ideal.ofBits_zero_f32]

/-- The second result of the body at an index: the rectified product's row times the weight matrix's column. -/
theorem second_out_apply (x0 : Vec Ideal S400x10000 .f32) (x1 : Vec Ideal S10000x64 .f32) (x2 : Vec Ideal S64x256 .f32)
    (p : Fin 400) (q : Fin 256) :
    k1_pay3 x0 x1 x2 (ix2 p q)
      = ∑ k : Fin 64, max (∑ l : Fin 10000, x0 (ix2 p l) * x1 (ix2 l k)) 0 * x2 (ix2 k q) := by
  unfold k1_pay3
  show FloatOps.matmul (φ₁ := .f32) (φ₂ := .f32) (DotDims.plain 400 64 256) none (k1_pay1 x0 x1) x2
      (constant (F := Ideal) (⟨2, ![400, 256]⟩ : Shape) .f32 0x00000000#32) (ix2 p q) = _
  rw [Cert.PlainDot.matmul_zero_apply]
  refine Finset.sum_congr rfl fun k _ => ?_
  exact congrArg (· * x2 (ix2 k q)) (rect_prod_apply x0 x1 p k)

/-- The printed index maps over the grid: the adjacency's and the second output's blocks move down one block of rows
    per point and stay in the first block of columns; the projected features and the weight matrix are their whole arrays. -/
theorem index_maps1b : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_4.index t (0 : Fin 2) = t.val ∧ win1_4.index t (1 : Fin 2) = 0 :=
  (by decide +kernel : ∀ t : Fin grid1.N, _)

/-- The adjacency's block at point t is rows 400 t … 400 t + 399 of the adjacency. -/
theorem adj_blk_apply (c : Dev nD) (t : Fin cfg1.N) (p : Fin 400) (l : Fin 10000) (r : Fin 10000)
    (hr : r.val = 400 * t.val + p.val) :
    (iblk1 V c 0 t : Vec Ideal S400x10000 .f32) (ix2 p l) = (V c main_arg1 : Mat 10000 10000) (ix2 r l) := by
  obtain ⟨e0, e1, -⟩ := index_maps1b t
  unfold iblk1
  rw [View.read_apply]
  show V c main_arg1 _ = V c main_arg1 _
  congr 1
  funext a
  apply Fin.ext
  match a with
  | ⟨0, _⟩ => show win1_0.index t (0 : Fin 2) * 400 + 1 * p.val = r.val; omega
  | ⟨1, _⟩ => show win1_0.index t (1 : Fin 2) * 10000 + 1 * l.val = l.val; omega

/-- The projected features' block at every point is the whole array. -/
theorem feat_blk_apply (c : Dev nD) (t : Fin cfg1.N) (l : Fin 10000) (k : Fin 64) :
    (iblk1 V c 1 t : Vec Ideal S10000x64 .f32) (ix2 l k) = (V c main_v0 : Mat 10000 64) (ix2 l k) := by
  obtain ⟨-, -, e0, e1, -⟩ := index_maps1b t
  unfold iblk1
  rw [View.read_apply]
  show V c main_v0 _ = V c main_v0 _
  congr 1
  funext a
  apply Fin.ext
  match a with
  | ⟨0, _⟩ => show win1_1.index t (0 : Fin 2) * 10000 + 1 * l.val = l.val; omega
  | ⟨1, _⟩ => show win1_1.index t (1 : Fin 2) * 64 + 1 * k.val = k.val; omega

/-- The weight matrix's block at every point is the whole array. -/
theorem wt_blk_apply (c : Dev nD) (t : Fin cfg1.N) (k : Fin 64) (q : Fin 256) :
    (iblk1 V c 2 t : Vec Ideal S64x256 .f32) (ix2 k q) = (V c main_arg3 : Mat 64 256) (ix2 k q) := by
  obtain ⟨-, -, -, -, e0, e1, -⟩ := index_maps1b t
  unfold iblk1
  rw [View.read_apply]
  show V c main_arg3 _ = V c main_arg3 _
  congr 1
  funext a
  apply Fin.ext
  match a with
  | ⟨0, _⟩ => show win1_2.index t (0 : Fin 2) * 64 + 1 * k.val = k.val; omega
  | ⟨1, _⟩ => show win1_2.index t (1 : Fin 2) * 256 + 1 * q.val = q.val; omega

/-- The hidden layer times the second weight matrix, of the arrays as the region finds them. -/
abbrev prod1b (c : Dev nD) : Mat 10000 256 :=
  Cert.Spec.mm (M := 10000) (K := 64) (N := 256) (Cert.Spec.hid (V c main_arg1 : Mat 10000 10000) (V c main_v0 : Mat 10000 64)) (V c main_arg3 : Mat 64 256)

/-- The product at a row and a column, written out. -/
theorem prod_spec_apply (A : Mat 10000 10000) (H : Mat 10000 64) (W : Mat 64 256) (r : Fin 10000) (q : Fin 256) :
    Cert.Spec.mm (M := 10000) (K := 64) (N := 256) (Cert.Spec.hid A H) W (ix2 r q)
      = ∑ k : Fin 64, max (∑ l : Fin 10000, A (ix2 r l) * H (ix2 l k)) 0 * W (ix2 k q) := rfl

/-- What point t writes back to the second output is rows 400 t … 400 t + 399 of that product. -/
theorem flushed1b_eq (c : Dev nD) (t : Fin cfg1.N) :
    (dat1 (F := Ideal) V c).flushed 4 t = ((cfg1.win 4).blk t).view.read (Elt Ideal) (prod1b V c) := by
  show (cfg1.win 4).cut (grid1.coords t) ((dat1 V c).after 4 t) = _
  rw [after1_4]
  unfold out1_4
  rw [View.canon_unit_zero off_zero1b]
  simp only [View.ld_unit_zero (S := S400x10000) off_zero1b, View.ld_unit_zero (S := S10000x64) off_zero1b,
    View.ld_unit_zero (S := S64x256) off_zero1b]
  have ht : t.val < 25 := lt_of_lt_of_eq t.isLt N_1
  obtain ⟨-, -, -, -, -, -, e0, e1⟩ := index_maps1b t
  funext y
  obtain ⟨p, q, rfl⟩ : ∃ (p : Fin 400) (q : Fin 256), y = ix2 p q := ⟨y 0, y 1, eq_ix2 y⟩
  have hemb : ((cfg1.win 4).blk t).view.emb (ix2 p q) = ix2 (⟨400 * t.val + p.val, by omega⟩ : Fin 10000) q := by
    funext a
    apply Fin.ext
    match a with
    | ⟨0, _⟩ => show win1_4.index t (0 : Fin 2) * 400 + 1 * p.val = 400 * t.val + p.val; omega
    | ⟨1, _⟩ => show win1_4.index t (1 : Fin 2) * 256 + 1 * q.val = q.val; omega
  show k1_pay3 (iblk1 V c 0 t) (iblk1 V c 1 t) (iblk1 V c 2 t) (ix2 p q) = prod1b V c (((cfg1.win 4).blk t).view.emb (ix2 p q))
  rw [hemb]
  refine (second_out_apply _ _ _ p q).trans (Eq.trans ?_ (prod_spec_apply _ _ _ _ q).symm)
  refine Finset.sum_congr rfl fun k _ => ?_
  refine congrArg₂ (fun a b : EReal => a * b) (congrArg (fun a : EReal => max a 0) (Finset.sum_congr rfl fun l _ => ?_)) (wt_blk_apply V c t k q)
  exact congrArg₂ (fun a b : EReal => a * b) (adj_blk_apply V c t p l _ rfl) (feat_blk_apply V c t l k)

/-- An index of the second output is in point t's block iff each coordinate is in the block's range on its axis. -/
theorem mem_blk1b (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_v1_1).slice (win1_4.rect t)).set ↔ _
  rw [View.set_slice_whole, Rect.mem_set_unit]
  exact Iff.rfl

/-- Row r of the second output is written back by point r / 400. -/
theorem cover1b (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, e0, e1⟩ := index_maps1b t
  refine ⟨t, flush1_4 t, ?_⟩
  rw [mem_blk1b]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 256 ≤ (i 1).val ∧ (i 1).val < win1_4.index t (1 : Fin 2) * 256 + 256; omega

end SecondOut

open SecondOut in
/-- After region 1 its second output array holds the hidden layer times the second weight matrix. -/
theorem final1_4 (c : Dev nD) :
    (dat1 (F := Ideal) V c).arrAt 4 cfg1.N
      = Cert.Spec.mm (M := 10000) (K := 64) (N := 256) (Cert.Spec.hid (V c main_arg1 : Mat 10000 10000) (V c main_v0 : Mat 10000 64)) (V c main_arg3 : Mat 64 256) :=
  (dat1 (F := Ideal) V c).arrAt_eq_of_cover 4 (prod1b V c) (fun t _ => flushed1b_eq V c t) cover1b

end Cert.KernelIdeal.Hand

end
-- ==== Proof.KI.V2.lean ====
/-
  What region 2 leaves in its output array, at the extended reals, as a function of the two arrays it reads (the
  normalised rows, read through two windows, and Y): for each row i, the thresholded similarities' weighted sum of
  the rows of Y, divided by the floored sum of the thresholded similarities. Each of the 25 points writes back 400
  rows, and the blocks tile the array.
-/
import proofs.«131982_g23313082482977_cont_8to1_1054_4_alg».proof.Proof.KI.R2
import proofs.«131982_g23313082482977_cont_8to1_1054_4_alg».proof.Proof.Spec
import proofs.«131982_g23313082482977_cont_8to1_1054_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (Mat)

namespace Aggregate

/-! ## Two column layouts, and a product whose right operand is contracted on its last axis -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {M K N : Nat}

/-- The left operand is read on its row axis at the output's row. -/
theorem lhsT_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand is read on its inner axis at the contraction index. -/
theorem lhsT_inner (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand is read on its row axis at the output's column. -/
theorem rhsT_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand is read on its inner axis at the contraction index. -/
theorem rhsT_inner (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum re-indexed by the inner coordinate: entry (p, j) is Σₖ A(p, k) · B(j, k). -/
theorem sum_contrT (A : (⟨2, ![M, K]⟩ : Shape).Idx → EReal) (B : (⟨2, ![N, K]⟩ : Shape).Idx → EReal)
    (j : (⟨2, ![M, N]⟩ : Shape).Idx) :
    (∑ q : (DotDims.transposedRhs M K N).contr.Idx,
        A ((DotDims.transposedRhs M K N).lhsIdx j q) * B ((DotDims.transposedRhs M K N).rhsIdx j q))
      = ∑ k : Fin K, A (ix2 (j 0) k) * B (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhsT_row _ _
      | ⟨1, _⟩ => exact (lhsT_inner _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhsT_row _ _
      | ⟨1, _⟩ => exact (rhsT_inner _ _).trans hk)
  exact congrArg₂ (· * ·) (congrArg A el) (congrArg B er)

/-- The matrix unit's product with the right operand contracted on its last axis, into the zero accumulator. -/
theorem matmulT_zero_apply {φ₁ φ₂ : FTy} (prec : Option ContractPrecision)
    (A : FVec Ideal (⟨2, ![M, K]⟩ : Shape) φ₁) (B : FVec Ideal (⟨2, ![N, K]⟩ : Shape) φ₂) (j : (⟨2, ![M, N]⟩ : Shape).Idx) :
    FloatOps.matmul (DotDims.transposedRhs M K N) prec A B (constant (⟨2, ![M, N]⟩ : Shape) .f32 0x00000000#32) j
      = ∑ k : Fin K, A (ix2 (j 0) k) * B (ix2 (j 1) k) :=
  (Ideal.matmul_constant_zero_apply (DotDims.transposedRhs M K N) prec A B j).trans (sum_contrT A B j)

/-! ## The body's arithmetic at an index -/

/-- A similarity below the threshold is dropped to zero: the comparison's bit selects the zero word's value. -/
theorem select_below_thr (s : EReal) :
    Scalar.select (FloatOps.cmpf (F := Ideal) (φ := .f32) .olt s (Scalar.ofBits (F := Ideal) .f32 0x3F19999A#32))
        (Scalar.ofBits (F := Ideal) .f32 0x00000000#32) s
      = if s < Cert.Spec.thr then 0 else s := by
  by_cases h : s < Cert.Spec.thr
  · rw [if_pos h]
    show Scalar.select (BitVec.ofBool (decide (s < Cert.Spec.thr))) (Ideal.ofBits .f32 0x00000000#32) s = 0
    rw [decide_eq_true h]
    exact (select_one _ _).trans Ideal.ofBits_zero_f32
  · rw [if_neg h]
    show Scalar.select (BitVec.ofBool (decide (s < Cert.Spec.thr))) (Ideal.ofBits .f32 0x00000000#32) s = s
    rw [decide_eq_false h]
    exact select_zero _ _

/-- The block of similarities: the rows of the 400-row block against every row of the whole array. -/
def simBlk (x0 : FVec Ideal S400x64 .bf16) (x1 : FVec Ideal S10000x64 .bf16) : FVec Ideal S400x10000 .f32 :=
  matmul dot_S400x64_S10000x64_S400x10000_1_1_0_0_n_n none x0 x1 (constant (F := Ideal) S400x10000 .f32 0x00000000#32)

/-- Entry (p, j) of it is Σₖ x0(p, k) · x1(j, k). -/
theorem simBlk_apply (x0 : FVec Ideal S400x64 .bf16) (x1 : FVec Ideal S10000x64 .bf16) (p : Fin 400) (j : Fin 10000) :
    simBlk x0 x1 (ix2 p j) = ∑ k : Fin 64, x0 (ix2 p k) * x1 (ix2 j k) :=
  matmulT_zero_apply (M := 400) (K := 64) (N := 10000) none x0 x1 (ix2 p j)

/-- The thresholded block. -/
def dadjBlk (x0 : FVec Ideal S400x64 .bf16) (x1 : FVec Ideal S10000x64 .bf16) : FVec Ideal S400x10000 .f32 :=
  select (cmpf .olt (simBlk x0 x1) (broadcast S400x10000 (Scalar.ofBits (F := Ideal) .f32 0x3F19999A#32)))
    (broadcast S400x10000 (Scalar.ofBits (F := Ideal) .f32 0x00000000#32)) (simBlk x0 x1)

/-- Entry (p, j) of it, when the block's row p is row i of the array N and the second operand is N. -/
theorem dadjBlk_apply (N : Mat 10000 64) (x0 : FVec Ideal S400x64 .bf16) (x1 : FVec Ideal S10000x64 .bf16)
    (p : Fin 400) (i : Fin 10000) (h0 : ∀ k : Fin 64, x0 (ix2 p k) = N (ix2 i k))
    (h1 : ∀ (j : Fin 10000) (k : Fin 64), x1 (ix2 j k) = N (ix2 j k)) (j : Fin 10000) :
    dadjBlk x0 x1 (ix2 p j) = Cert.Spec.dadj N i j := by
  have hs : simBlk x0 x1 (ix2 p j) = Cert.Spec.sim N i j := by
    rw [simBlk_apply]
    exact Finset.sum_congr rfl fun k _ => by rw [h0 k, h1 j k]
  show Scalar.select (FloatOps.cmpf (F := Ideal) (φ := .f32) .olt (simBlk x0 x1 (ix2 p j)) (Scalar.ofBits (F := Ideal) .f32 0x3F19999A#32))
      (Scalar.ofBits (F := Ideal) .f32 0x00000000#32) (simBlk x0 x1 (ix2 p j)) = _
  rw [select_below_thr, hs]
  rfl

/-- A lane sum of a 400 × 10000 block at row p is the sum over the 10000 columns. -/
theorem rowsum_apply (v : FVec Ideal S400x10000 .f32) (h : S400x10000.Reduces [1] S400) (hφ : FKind.Formats .f32)
    (hacc : (0x00000000#32 : BitVec FTy.f32.bits) = FKind.add.neutral .f32 hφ) (p : Fin 400) :
    multiReduction (F := Ideal) .add [1] S400 v 0x00000000#32 h hφ hacc (ix1 p) = ∑ j : Fin 10000, v (ix2 p j) := by
  refine (Ideal.multiReduction_add_single v _ h hφ hacc (ix1 p)).trans ?_
  show ∑ j : Fin 10000, v (h.lift (ix1 p) j) = _
  refine Finset.sum_congr rfl fun j _ => congrArg v ?_
  funext a
  apply Fin.ext
  match a with
  | ⟨0, _⟩ => rfl
  | ⟨1, _⟩ => rfl

/-- The body's payload at (p, q), when the block's row p is row i of N, the second operand is N and the third is Y:
    the kernel's aggregation at (i, q). -/
theorem pay_apply (N : Mat 10000 64) (Y : Mat 10000 256) (x0 : Vec Ideal S400x64 .bf16) (x1 : Vec Ideal S10000x64 .bf16)
    (x2 : Vec Ideal S10000x256 .bf16) (p : Fin 400) (q : Fin 256) (i : Fin 10000)
    (h0 : ∀ k : Fin 64, x0 (ix2 p k) = N (ix2 i k))
    (h1 : ∀ (j : Fin 10000) (k : Fin 64), x1 (ix2 j k) = N (ix2 j k))
    (h2 : ∀ (k : Fin 10000) (q : Fin 256), x2 (ix2 k q) = Y (ix2 k q)) :
    k2_pay1 (F := Ideal) x0 x1 x2 (ix2 p q) = Cert.Spec.outK N Y (ix2 i q) := by
  unfold k2_pay1
  simp only [shapeCast_self]
  refine congrArg₂ Ideal.div ?_ ?_
  · refine (Cert.PlainDot.matmul_zero_apply (M := 400) (K := 10000) (N := 256) (φ₁ := .bf16) (φ₂ := .bf16) none _ x2 (ix2 p q)).trans ?_
    refine Finset.sum_congr rfl fun k _ => ?_
    exact congrArg₂ (· * ·) (dadjBlk_apply N x0 x1 p i h0 h1 k) (h2 k q)
  · refine (broadcastTo_a1_ab_apply _ _ p q).trans ?_
    refine congrArg₂ max ?_ rfl
    refine (shapeCast_a_a1_apply _ _ p 0).trans ?_
    refine (rowsum_apply _ _ _ _ p).trans ?_
    exact Finset.sum_congr rfl fun j _ => dadjBlk_apply N x0 x1 p i h0 h1 j

/-! ## From blocks to the array -/

variable (V : (c : Dev nD) → (b : Ref sig .tc) → Buf (Elt Ideal) ((c : Thread nD τ).loc b))

/-- The body's rectangles start at the origin of their blocks. -/
theorem origin2 : (![0, 0] : Fin 2 → Nat) = fun _ => 0 := funext fun a => by fin_cases a <;> rfl

/-- The index maps of the four windows, decided over the 25 points: the 400-row blocks of the normalised rows and of
    the output are block (t, 0) at point t; the two whole-array windows sit at block (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the 400-row block at point t is row 400·t + p of the array of normalised rows. -/
theorem rows_blk_apply (c : Dev nD) (t : Fin cfg2.N) (p : Fin 400) (k : Fin 64) (i : Fin 10000)
    (hi : i.val = 400 * t.val + p.val) :
    (iblk2 V c 0 t : Vec Ideal S400x64 .bf16) (ix2 p k) = (V c main_v1_0 : Mat 10000 64) (ix2 i k) := by
  obtain ⟨e0, e1, -⟩ := index_facts2 t
  show V c main_v1_0 (((cfg2.win 0).blk t).view.emb (ix2 p k)) = _
  refine congrArg (V c main_v1_0) (funext fun a => Fin.ext ?_)
  match a with
  | ⟨0, _⟩ => show win2_0.index t (0 : Fin 2) * 400 + 1 * p.val = i.val; rw [e0]; omega
  | ⟨1, _⟩ => show win2_0.index t (1 : Fin 2) * 64 + 1 * k.val = k.val; rw [e1]; omega

/-- The second window holds the whole array of normalised rows at every point. -/
theorem rows_whole_apply (c : Dev nD) (t : Fin cfg2.N) (j : Fin 10000) (k : Fin 64) :
    (iblk2 V c 1 t : Vec Ideal S10000x64 .bf16) (ix2 j k) = (V c main_v1_0 : Mat 10000 64) (ix2 j k) := by
  obtain ⟨-, -, e2, e3, -⟩ := index_facts2 t
  show V c main_v1_0 (((cfg2.win 1).blk t).view.emb (ix2 j k)) = _
  refine congrArg (V c main_v1_0) (funext fun a => Fin.ext ?_)
  match a with
  | ⟨0, _⟩ => show win2_1.index t (0 : Fin 2) * 10000 + 1 * j.val = j.val; rw [e2]; omega
  | ⟨1, _⟩ => show win2_1.index t (1 : Fin 2) * 64 + 1 * k.val = k.val; rw [e3]; omega

/-- The third window holds the whole array Y at every point. -/
theorem y_whole_apply (c : Dev nD) (t : Fin cfg2.N) (k : Fin 10000) (q : Fin 256) :
    (iblk2 V c 2 t : Vec Ideal S10000x256 .bf16) (ix2 k q) = (V c main_v1_1 : Mat 10000 256) (ix2 k q) := by
  obtain ⟨-, -, -, -, e4, e5, -⟩ := index_facts2 t
  show V c main_v1_1 (((cfg2.win 2).blk t).view.emb (ix2 k q)) = _
  refine congrArg (V c main_v1_1) (funext fun a => Fin.ext ?_)
  match a with
  | ⟨0, _⟩ => show win2_2.index t (0 : Fin 2) * 10000 + 1 * k.val = k.val; rw [e4]; omega
  | ⟨1, _⟩ => show win2_2.index t (1 : Fin 2) * 256 + 1 * q.val = q.val; rw [e5]; omega

/-- What point t writes back is block t of the kernel's aggregation of the two arrays. -/
theorem flushed2_eq (c : Dev nD) (t : Fin cfg2.N) :
    (dat2 (F := Ideal) V c).flushed 3 t
      = ((cfg2.win 3).blk t).view.read (Elt Ideal)
          (Cert.Spec.outK (V c main_v1_0 : Mat 10000 64) (V c main_v1_1 : Mat 10000 256)) := by
  show (cfg2.win 3).cut (grid2.coords t) ((dat2 (F := Ideal) V c).after 3 t) = _
  rw [after2_3]
  unfold out2_3
  rw [View.canon_unit_zero origin2]
  simp only [View.ld_unit_zero (S := S400x64) origin2, View.ld_unit_zero (S := S10000x64) origin2,
    View.ld_unit_zero (S := S10000x256) origin2]
  obtain ⟨-, -, -, -, -, -, e6, e7⟩ := index_facts2 t
  have ht : t.val < 25 := lt_of_lt_of_eq t.isLt N_2
  funext y
  obtain ⟨p, q, rfl⟩ : ∃ (p : Fin 400) (q : Fin 256), y = ix2 p q := ⟨y 0, y 1, eq_ix2 y⟩
  have hp : p.val < 400 := p.isLt
  show k2_pay1 (F := Ideal) (iblk2 V c 0 t) (iblk2 V c 1 t) (iblk2 V c 2 t) (ix2 p q)
    = Cert.Spec.outK (V c main_v1_0 : Mat 10000 64) (V c main_v1_1 : Mat 10000 256) (((cfg2.win 3).blk t).view.emb (ix2 p q))
  have hemb : ((cfg2.win 3).blk t).view.emb (ix2 p q) = ix2 (⟨400 * t.val + p.val, by omega⟩ : Fin 10000) q :=
    funext fun a => Fin.ext (by
      match a with
      | ⟨0, _⟩ => show win2_3.index t (0 : Fin 2) * 400 + 1 * p.val = 400 * t.val + p.val; rw [e6]; omega
      | ⟨1, _⟩ => show win2_3.index t (1 : Fin 2) * 256 + 1 * q.val = q.val; rw [e7]; omega)
  rw [hemb]
  exact pay_apply _ _ _ _ _ p q _ (fun k => rows_blk_apply V c t p k _ rfl) (fun j k => rows_whole_apply V c t j k)
    (fun k q => y_whole_apply V c t k q)

/-- An index of the output array is in point t's block iff each coordinate is in the block's range on its axis. -/
theorem mem_blk2 (t : Fin cfg2.N) (i : S10000x256.Idx) :
    i ∈ ((cfg2.win 3).blk t).view.set
      ↔ ∀ a : Fin 2, win2_3.index t a * S400x256.size a ≤ (i a).val ∧ (i a).val < win2_3.index t a * S400x256.size a + S400x256.size a := by
  show i ∈ ((View.whole main_v2).slice (win2_3.rect t)).set ↔ _
  rw [View.set_slice_whole, Rect.mem_set_unit]
  exact Iff.rfl

/-- Row r of the output is written back by point r / 400. -/
theorem cover2 (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  have hN : grid2.N = 25 := N_2
  have hlt : (i 0).val / 400 < cfg2.N := by show _ < grid2.N; rw [hN]; omega
  obtain ⟨-, -, -, -, -, -, e6, e7⟩ := index_facts2 ⟨(i 0).val / 400, hlt⟩
  refine ⟨⟨(i 0).val / 400, hlt⟩, flush2_3 _, ?_⟩
  rw [mem_blk2]
  intro a
  match a with
  | ⟨0, _⟩ =>
    show win2_3.index ⟨(i 0).val / 400, hlt⟩ (0 : Fin 2) * 400 ≤ (i 0).val
      ∧ (i 0).val < win2_3.index ⟨(i 0).val / 400, hlt⟩ (0 : Fin 2) * 400 + 400
    rw [e6]
    show (i 0).val / 400 * 400 ≤ (i 0).val ∧ (i 0).val < (i 0).val / 400 * 400 + 400
    omega
  | ⟨1, _⟩ =>
    show win2_3.index ⟨(i 0).val / 400, hlt⟩ (1 : Fin 2) * 256 ≤ (i 1).val
      ∧ (i 1).val < win2_3.index ⟨(i 0).val / 400, hlt⟩ (1 : Fin 2) * 256 + 256
    rw [e7]
    omega

end Aggregate

variable (V : (c : Dev nD) → (b : Ref sig .tc) → Buf (Elt Ideal) ((c : Thread nD τ).loc b))

/-- After region 2 its output array holds the kernel's aggregation of the two arrays it reads. -/
theorem final2 (c : Dev nD) :
    (dat2 (F := Ideal) V c).arrAt 3 cfg2.N
      = Cert.Spec.outK (V c main_v1_0 : Mat 10000 64) (V c main_v1_1 : Mat 10000 256) :=
  (dat2 (F := Ideal) V c).arrAt_eq_of_cover 3 _ (fun t _ => Aggregate.flushed2_eq V c t) Aggregate.cover2

end Cert.KernelIdeal.Hand

end
-- ==== Proof.KI.KVal.lean ====
/-
  The kernel's result as one function of the four inputs, at the extended reals: the three regions' outputs read back
  one after the other. Region 0 leaves the projected features; region 1, reading them beside the unchanged adjacency
  and second weight matrix, leaves the normalised rows and Y; region 2, reading those two, leaves the result. The
  arguments are never written, so each region finds them as launched.
-/
import proofs.«131982_g23313082482977_cont_8to1_1054_4_alg».proof.Proof.KI.Run
import proofs.«131982_g23313082482977_cont_8to1_1054_4_alg».proof.Proof.KI.V0
import proofs.«131982_g23313082482977_cont_8to1_1054_4_alg».proof.Proof.KI.V1a
import proofs.«131982_g23313082482977_cont_8to1_1054_4_alg».proof.Proof.KI.V1b
import proofs.«131982_g23313082482977_cont_8to1_1054_4_alg».proof.Proof.KI.V2
import proofs.«131982_g23313082482977_cont_8to1_1054_4_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.Spec (Mat)

variable (m : (ℓ : Loc nD τ sig) → Buf (Elt Ideal) ℓ)

/-- The four inputs as matrices, on core `c`. -/
abbrev featOf (c : Dev nD) : Mat 10000 256 := m ((c : Thread nD τ).loc main_arg0)
abbrev adjOf (c : Dev nD) : Mat 10000 10000 := m ((c : Thread nD τ).loc main_arg1)
abbrev w1Of (c : Dev nD) : Mat 256 64 := m ((c : Thread nD τ).loc main_arg2)
abbrev w2Of (c : Dev nD) : Mat 64 256 := m ((c : Thread nD τ).loc main_arg3)

/-- Region 1 finds the adjacency and the second weight matrix as launched: region 0 does not touch them. -/
theorem adj_before1 (c : Dev nD) : (V1 m c main_arg1 : Mat 10000 10000) = adjOf m c := W1_of_ne m c main_arg1 (by decide)
theorem w2_before1 (c : Dev nD) : (V1 m c main_arg3 : Mat 64 256) = w2Of m c := W1_of_ne m c main_arg3 (by decide)

/-- After region 0 the projected features are feat · W1. -/
theorem h1_after0 (c : Dev nD) : (V1 m c main_v0 : Mat 10000 64) = Cert.Spec.mm (featOf m c) (w1Of m c) :=
  (W1_arr m c 2).trans (final0 (V0 m) c)

/-- After region 1 the first output holds the normalised rows of the hidden layer. -/
theorem hn_after1 (c : Dev nD) :
    (V2 m c main_v1_0 : Mat 10000 64) = Cert.Spec.hnorm (Cert.Spec.hid (adjOf m c) (Cert.Spec.mm (featOf m c) (w1Of m c))) :=
  (W2_arr m c 3).trans ((final1_3 (V1 m) c).trans
    (congrArg Cert.Spec.hnorm (congrArg₂ Cert.Spec.hid (adj_before1 m c) (h1_after0 m c))))

/-- After region 1 the second output holds the hidden layer times the second weight matrix. -/
theorem y_after1 (c : Dev nD) :
    (V2 m c main_v1_1 : Mat 10000 256)
      = Cert.Spec.mm (Cert.Spec.hid (adjOf m c) (Cert.Spec.mm (featOf m c) (w1Of m c))) (w2Of m c) :=
  (W2_arr m c 4).trans ((final1_4 (V1 m) c).trans
    (congrArg₂ (Cert.Spec.mm (M := 10000) (K := 64) (N := 256)) (congrArg₂ Cert.Spec.hid (adj_before1 m c) (h1_after0 m c)) (w2_before1 m c)))

/-- After region 2 the result array holds the kernel's function of the four inputs. -/
theorem out_after2 (c : Dev nD) :
    (W3 m c (Proc.devRef .tc main_v2) : Mat 10000 256) = Cert.Spec.kernelFn (featOf m c) (adjOf m c) (w1Of m c) (w2Of m c) :=
  (W3_main_v2 m c).trans ((final2 (V2 m) c).trans (congrArg₂ Cert.Spec.outK (hn_after1 m c) (y_after1 m c)))

/-- THE VALUE RUN: every weakly fair execution terminates, nothing faulting, with the result array at the kernel's
    function of the launch contents of the four arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v2) = Cert.Spec.kernelFn (featOf m c) (adjOf m c) (w1Of m c) (w2Of m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (out_after2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Ref.lean ====
/-
  The reference program's result, read operation by operation at the extended reals, is the specification's
  reference function of the four inputs.
-/
import proofs.«131982_g23313082482977_cont_8to1_1054_4_alg».proof.Proof.Gen.ReferenceIdeal.Run
import proofs.«131982_g23313082482977_cont_8to1_1054_4_alg».proof.Proof.Gen.ReferenceIdeal.Read
import proofs.«131982_g23313082482977_cont_8to1_1054_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Spec (Mat)

/-! ### Each stage as a function of the inputs; the operand indices of each product and sum are written by coordinates
    just above the stage that uses them -/

theorem lidx_v0 (i : S10000x64.Idx) (k : Fin 256) : lidx_main_v0 i k = @ix2 10000 256 (i 0) k :=
  funext fun a => Fin.ext (by match a with | ⟨0, _⟩ => rfl | ⟨1, _⟩ => rfl)
theorem ridx_v0 (i : S10000x64.Idx) (k : Fin 256) : ridx_main_v0 i k = @ix2 256 64 k (i 1) :=
  funext fun a => Fin.ext (by match a with | ⟨0, _⟩ => rfl | ⟨1, _⟩ => rfl)
theorem lidx_v1 (i : S10000x64.Idx) (k : Fin 10000) : lidx_main_v1 i k = @ix2 10000 10000 (i 0) k :=
  funext fun a => Fin.ext (by match a with | ⟨0, _⟩ => rfl | ⟨1, _⟩ => rfl)
theorem ridx_v1 (i : S10000x64.Idx) (k : Fin 10000) : ridx_main_v1 i k = @ix2 10000 64 k (i 1) :=
  funext fun a => Fin.ext (by match a with | ⟨0, _⟩ => rfl | ⟨1, _⟩ => rfl)

/-- The first product: the features times the first weight matrix. -/
theorem v0_eq (x0 : Mat 10000 256) (x2 : Mat 256 64) :
    val_main_v0 (F := Ideal) x0 x2 = Cert.Spec.mm x0 x2 := by
  funext i
  rw [val_main_v0_apply]
  simp only [lidx_v0, ridx_v0, Cert.Spec.mm]

/-- The second product: the adjacency times the projected features. -/
theorem v1_eq (x0 : Mat 10000 256) (x1 : Mat 10000 10000) (x2 : Mat 256 64) :
    val_main_v1 (F := Ideal) x0 x1 x2 = Cert.Spec.mm x1 (Cert.Spec.mm x0 x2) := by
  funext i
  rw [val_main_v1_apply, v0_eq]
  simp only [lidx_v1, ridx_v1]
  rfl

/-- The hidden layer: the second product, rectified. -/
theorem v2_eq (x0 : Mat 10000 256) (x1 : Mat 10000 10000) (x2 : Mat 256 64) :
    val_main_v2 (F := Ideal) x0 x1 x2 = Cert.Spec.hid x1 (Cert.Spec.mm x0 x2) := by
  funext i
  rw [val_main_v2_apply, val_main_call0_v0_apply, val_main_call0_cst_apply, v1_eq,
    Ideal.ofBits_def, Ideal.ofBits_zero_f32, Ideal.maximumf_def]
  rfl

theorem idx_norm (i : S10000x1.Idx) (k : Fin 64) :
    idx_main_call1_v1 (idx_main_call1_v2 i) k = @ix2 10000 64 (i 0) k :=
  funext fun a => Fin.ext (by match a with | ⟨0, _⟩ => rfl | ⟨1, _⟩ => rfl)

/-- The norm column: a row's Euclidean norm, floored at ε. -/
theorem v5_eq (x0 : Mat 10000 256) (x1 : Mat 10000 10000) (x2 : Mat 256 64) (i : S10000x1.Idx) :
    val_main_v5 (F := Ideal) x0 x1 x2 i = Cert.Spec.rnorm (Cert.Spec.hid x1 (Cert.Spec.mm x0 x2)) (i 0) := by
  rw [val_main_v5_apply, val_main_v3_apply, val_main_call1_v2_apply, val_main_call1_v1_apply,
    val_main_call1_cst_apply, val_main_v4_apply, val_main_cst_apply]
  simp only [val_main_call1_v0_apply, v2_eq, idx_norm, Ideal.ofBits_def, Ideal.ofBits_zero_f32, zero_add,
    Ideal.maximumf_def, Ideal.hostUnary_sqrt_def, Ideal.mulf_def]
  rfl

/-- The rows of the hidden layer divided by their floored norms. -/
theorem v7_eq (x0 : Mat 10000 256) (x1 : Mat 10000 10000) (x2 : Mat 256 64) :
    val_main_v7 (F := Ideal) x0 x1 x2 = Cert.Spec.hnorm (Cert.Spec.hid x1 (Cert.Spec.mm x0 x2)) := by
  funext i
  rw [val_main_v7_apply, val_main_v6_apply, v5_eq, v2_eq, Ideal.hostDivf_def]
  rfl

theorem lidx_v9 (i : S10000x10000.Idx) (k : Fin 64) : lidx_main_v9 i k = @ix2 10000 64 (i 0) k :=
  funext fun a => Fin.ext (by match a with | ⟨0, _⟩ => rfl | ⟨1, _⟩ => rfl)
theorem ridx_v9 (i : S10000x10000.Idx) (k : Fin 64) : idx_main_v8 (ridx_main_v9 i k) = @ix2 10000 64 (i 1) k :=
  funext fun a => Fin.ext (by match a with | ⟨0, _⟩ => rfl | ⟨1, _⟩ => rfl)

/-- The similarity matrix: the normalised rows against their transpose. -/
theorem v9_eq (x0 : Mat 10000 256) (x1 : Mat 10000 10000) (x2 : Mat 256 64) (i : S10000x10000.Idx) :
    val_main_v9 (F := Ideal) x0 x1 x2 i
      = Cert.Spec.sim (Cert.Spec.hnorm (Cert.Spec.hid x1 (Cert.Spec.mm x0 x2))) (i 0) (i 1) := by
  rw [val_main_v9_apply]
  simp only [val_main_v8_apply, v7_eq, lidx_v9, ridx_v9]
  rfl

/-- A select on the bit of a strict comparison of extended reals is the conditional on that comparison. -/
theorem select_lt (x y a b : EReal) :
    Scalar.select (Ideal.cmp .olt x y) a b = if x < y then a else b := by
  unfold Scalar.select Ideal.cmp
  by_cases h : x < y
  · simp [h]
  · simp [h]

/-- The thresholded similarity. -/
theorem v13_eq (x0 : Mat 10000 256) (x1 : Mat 10000 10000) (x2 : Mat 256 64) (i : S10000x10000.Idx) :
    val_main_v13 (F := Ideal) x0 x1 x2 i
      = Cert.Spec.dadj (Cert.Spec.hnorm (Cert.Spec.hid x1 (Cert.Spec.mm x0 x2))) (i 0) (i 1) := by
  rw [val_main_v13_apply, val_main_v11_apply, val_main_v12_apply, val_main_cst_1_apply, val_main_v10_apply,
    val_main_cst_0_apply, v9_eq, Ideal.cmpf_def, Ideal.ofBits_def, Ideal.ofBits_def, Ideal.ofBits_zero_f32, select_lt]
  rfl

theorem idx_v15 (i : S10000x1.Idx) (k : Fin 10000) :
    idx_main_v15 (idx_main_v16 i) k = @ix2 10000 10000 (i 0) k :=
  funext fun a => Fin.ext (by match a with | ⟨0, _⟩ => rfl | ⟨1, _⟩ => rfl)

/-- The row weight: the sum of the absolute values of the thresholded similarities, floored at ε. -/
theorem v18_eq (x0 : Mat 10000 256) (x1 : Mat 10000 10000) (x2 : Mat 256 64) (i : S10000x1.Idx) :
    val_main_v18 (F := Ideal) x0 x1 x2 i
      = Cert.Spec.l1R (Cert.Spec.hnorm (Cert.Spec.hid x1 (Cert.Spec.mm x0 x2))) (i 0) := by
  rw [val_main_v18_apply, val_main_v16_apply, val_main_v15_apply, val_main_cst_2_apply, val_main_v17_apply,
    val_main_cst_3_apply]
  simp only [val_main_v14_apply, v13_eq, idx_v15, Ideal.ofBits_def, Ideal.ofBits_zero_f32, zero_add,
    Ideal.maximumf_def, Ideal.hostAbsf_def, Ideal.absf_def]
  rfl

/-- The thresholded similarity divided by its row's weight. -/
theorem v20_eq (x0 : Mat 10000 256) (x1 : Mat 10000 10000) (x2 : Mat 256 64) (i : S10000x10000.Idx) :
    val_main_v20 (F := Ideal) x0 x1 x2 i
      = Ideal.div (Cert.Spec.dadj (Cert.Spec.hnorm (Cert.Spec.hid x1 (Cert.Spec.mm x0 x2))) (i 0) (i 1))
          (Cert.Spec.l1R (Cert.Spec.hnorm (Cert.Spec.hid x1 (Cert.Spec.mm x0 x2))) (i 0)) := by
  rw [val_main_v20_apply, val_main_v19_apply, v18_eq, v13_eq, Ideal.hostDivf_def]
  rfl

theorem lidx_v21 (i : S10000x256.Idx) (k : Fin 64) : lidx_main_v21 i k = @ix2 10000 64 (i 0) k :=
  funext fun a => Fin.ext (by match a with | ⟨0, _⟩ => rfl | ⟨1, _⟩ => rfl)
theorem ridx_v21 (i : S10000x256.Idx) (k : Fin 64) : ridx_main_v21 i k = @ix2 64 256 k (i 1) :=
  funext fun a => Fin.ext (by match a with | ⟨0, _⟩ => rfl | ⟨1, _⟩ => rfl)

/-- The hidden layer times the second weight matrix. -/
theorem v21_eq (x0 : Mat 10000 256) (x1 : Mat 10000 10000) (x2 : Mat 256 64) (x3 : Mat 64 256) :
    val_main_v21 (F := Ideal) x0 x1 x2 x3 = Cert.Spec.mm (Cert.Spec.hid x1 (Cert.Spec.mm x0 x2)) x3 := by
  funext i
  rw [val_main_v21_apply, v2_eq]
  simp only [lidx_v21, ridx_v21]
  rfl

theorem lidx_v22 (i : S10000x256.Idx) (k : Fin 10000) : lidx_main_v22 i k = @ix2 10000 10000 (i 0) k :=
  funext fun a => Fin.ext (by match a with | ⟨0, _⟩ => rfl | ⟨1, _⟩ => rfl)
theorem ridx_v22 (i : S10000x256.Idx) (k : Fin 10000) : ridx_main_v22 i k = @ix2 10000 256 k (i 1) :=
  funext fun a => Fin.ext (by match a with | ⟨0, _⟩ => rfl | ⟨1, _⟩ => rfl)

/-- The last stage of the reference, as a function of the four inputs, is the specification's reference function. -/
theorem ref_eq (x0 : Mat 10000 256) (x1 : Mat 10000 10000) (x2 : Mat 256 64) (x3 : Mat 64 256) :
    val_main_v22 (F := Ideal) x0 x1 x2 x3 = Cert.Spec.refFn x0 x1 x2 x3 := by
  funext i
  rw [val_main_v22_apply, v21_eq]
  simp only [v20_eq, lidx_v22, ridx_v22]
  rfl

end Cert.ReferenceIdeal.RefValue

end
-- ==== Proof.Fin.lean ====
/-
  The precondition says every entry of the four inputs is a finite float; at the extended reals that makes every
  entry a real number.
-/
import proofs.«131982_g23313082482977_cont_8to1_1054_4_alg».proof.Defs
import proofs.«131982_g23313082482977_cont_8to1_1054_4_alg».proof.Proof.Gen.Pre_finite_inputs
import proofs.«131982_g23313082482977_cont_8to1_1054_4_alg».proof.Proof.Spec
import Idealize.ShloMosaic.Lib.ReduceAll
import Idealize.ShloMosaic.Lib.ValueIdx
import Idealize.ShloMosaic.PureOps.Ideal.Laws

set_option maxRecDepth 16384

noncomputable section

namespace Cert.Proof.Finite

open Idealize.ShloMosaic Idealize.ShloMosaic.ValueIdx Idealize.SL.Sem
open Cert.Spec (Mat)

/-- The scalar shape has exactly one index. -/
instance : Subsingleton Cert.Pre_finite_inputs.S_.Idx := ⟨fun a b => funext fun d => d.elim0⟩

/-- The word with all exponent bits set and no fraction bit is +∞. -/
theorem inf_word : Ideal.ofBits .f32 0x7F800000#32 = (⊤ : EReal) := by
  simp [Ideal.ofBits, Ideal.ieee]

/-- An extended real whose absolute value lies strictly below +∞ is a real number:
    −∞ has absolute value +∞, and so has +∞. -/
theorem real_of_abs_lt_top (x : EReal) (h : max x (-x) < ⊤) : ∃ r : ℝ, x = (r : EReal) := by
  induction x using EReal.rec with
  | bot => simp at h
  | coe r => exact ⟨r, rfl⟩
  | top => simp at h

/-- An array passing the per-array test (the conjunction over all indices of |x| < +∞ is true) is real-valued. -/
theorem real_of_all_lt_inf {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) := by
  have e := Host.reduce_andi_all _ _ hr hu ix0 h i
  apply real_of_abs_lt_top
  have e' : Ideal.cmp .olt (max (x i) (-(x i))) (Ideal.ofBits .f32 0x7F800000#32) = 1#1 := e
  rw [inf_word] at e'
  by_contra hn
  simp [Ideal.cmp, hn] at e'

/-- Under the precondition, on every core each of the four input arrays is real-valued at every index. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Mat 10000 256) i = (r : EReal))
    ∧ (∀ i, ∃ r : ℝ, (m ((c.tc : Thread Cert.KernelIdeal.nD Cert.KernelIdeal.τ).loc Cert.KernelIdeal.main_arg1) : Mat 10000 10000) i = (r : EReal))
    ∧ (∀ i, ∃ r : ℝ, (m ((c.tc : Thread Cert.KernelIdeal.nD Cert.KernelIdeal.τ).loc Cert.KernelIdeal.main_arg2) : Mat 256 64) i = (r : EReal))
    ∧ (∀ i, ∃ r : ℝ, (m ((c.tc : Thread Cert.KernelIdeal.nD Cert.KernelIdeal.τ).loc Cert.KernelIdeal.main_arg3) : Mat 64 256) i = (r : EReal)) := by
  have h0 := congrFun (h c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all_lt_inf _ _ _ _ h0', real_of_all_lt_inf _ _ _ _ h1,
    real_of_all_lt_inf _ _ _ _ h2, real_of_all_lt_inf _ _ _ _ h3⟩

end Cert.Proof.Finite

end
-- ==== Proof.Bridge.lean ====
/-
  On real-valued inputs the kernel's function and the reference's function are the same function.

  Every intermediate quantity is a finite sum, product, maximum, square root of a non-negative real or quotient by a
  positive real, so it is a real number. A thresholded similarity is zero or at least θ > 0, hence equals its absolute
  value, and the two row weights agree. Over the reals the common positive divisor moves across the finite sum.
-/
import proofs.«131982_g23313082482977_cont_8to1_1054_4_alg».proof.Proof.Spec
import Idealize.ShloMosaic.Lib.ValueIdx
import Idealize.ShloMosaic.PureOps.Ideal.Laws
import Mathlib.Data.EReal.Basic
import Mathlib.Data.EReal.Operations
import Mathlib.Data.EReal.Inv

noncomputable section

namespace Cert.Spec

open Idealize.ShloMosaic Idealize.ShloMosaic.ValueIdx
open scoped BigOperators

/-! ### Extended reals that are real numbers -/

/-- An extended real that is (the image of) a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

/-- A finite sum of reals is real. -/
theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih (fun i hi => h i (Finset.mem_insert_of_mem hi)))

/-- The embedding of the reals commutes with finite sums. -/
theorem coe_sum {ι : Type*} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The embedding of the reals commutes with the maximum. -/
theorem coe_max (a b : ℝ) : ((max a b : ℝ) : EReal) = max (a : EReal) (b : EReal) :=
  EReal.coe_strictMono.monotone.map_max

/-- Dividing a real by a positive real gives the real quotient. -/
theorem div_real (x : EReal) {y : ℝ} (hy : 0 < y) (hx : IsReal x) : IsReal (Ideal.div x (y : EReal)) := by
  rw [Ideal.div_coe hy.ne']
  exact hx.mul ⟨_, rfl⟩

/-! ### The two constants are positive reals -/

theorem eps_pos : ∃ r : ℝ, 0 < r ∧ eps = (r : EReal) := by
  unfold eps
  simp [Ideal.ofBits, Ideal.ieee, -EReal.coe_mul]

theorem thr_pos : ∃ r : ℝ, 0 < r ∧ thr = (r : EReal) := by
  unfold thr
  simp [Ideal.ofBits, Ideal.ieee, -EReal.coe_mul]

/-! ### Every stage maps real matrices to real matrices -/

theorem mm_real {M K N : Nat} (A : Mat M K) (B : Mat K N) (hA : ∀ j, IsReal (A j)) (hB : ∀ j, IsReal (B j)) :
    ∀ j, IsReal (mm A B j) := by
  intro j
  unfold mm
  exact IsReal.sum _ _ (fun k _ => (hA _).mul (hB _))

theorem hid_real (adj : Mat 10000 10000) (h1 : Mat 10000 64) (ha : ∀ j, IsReal (adj j))
    (hh : ∀ j, IsReal (h1 j)) : ∀ j, IsReal (hid adj h1 j) := by
  intro j
  unfold hid
  exact (mm_real adj h1 ha hh j).max isReal_zero

/-- A row's floored norm is a positive real. -/
theorem rnorm_pos (H : Mat 10000 64) (hH : ∀ j, IsReal (H j)) (r : Fin 10000) :
    ∃ x : ℝ, 0 < x ∧ rnorm H r = (x : EReal) := by
  obtain ⟨e, he, hε⟩ := eps_pos
  choose h hh using fun k : Fin 64 => hH (ix2 r k)
  have hs : (∑ k : Fin 64, H (ix2 r k) * H (ix2 r k)) = ((∑ k : Fin 64, h k * h k : ℝ) : EReal) := by
    rw [← coe_sum]
    exact Finset.sum_congr rfl (fun k _ => by rw [hh k, EReal.coe_mul])
  have hnn : 0 ≤ ∑ k : Fin 64, h k * h k := Finset.sum_nonneg (fun k _ => mul_self_nonneg _)
  unfold rnorm
  rw [hs, Ideal.sqrt_coe, if_neg (not_lt.mpr hnn), hε, ← coe_max]
  exact ⟨_, lt_max_of_lt_right he, rfl⟩

theorem hnorm_real (H : Mat 10000 64) (hH : ∀ j, IsReal (H j)) : ∀ j, IsReal (hnorm H j) := by
  intro j
  unfold hnorm
  obtain ⟨x, hx, hr⟩ := rnorm_pos H hH (j 0)
  rw [hr]
  exact div_real _ hx (hH j)

theorem sim_real (N : Mat 10000 64) (hN : ∀ j, IsReal (N j)) (i j : Fin 10000) : IsReal (sim N i j) := by
  unfold sim
  exact IsReal.sum _ _ (fun k _ => (hN _).mul (hN _))

theorem dadj_real (N : Mat 10000 64) (hN : ∀ j, IsReal (N j)) (i j : Fin 10000) : IsReal (dadj N i j) := by
  unfold dadj
  split_ifs
  · exact isReal_zero
  · exact sim_real N hN i j

/-- A thresholded similarity is zero or at least θ, so it is never negative. -/
theorem dadj_nonneg (N : Mat 10000 64) (i j : Fin 10000) : 0 ≤ dadj N i j := by
  obtain ⟨t, ht, hθ⟩ := thr_pos
  unfold dadj
  split_ifs with h
  · exact le_rfl
  · have h0 : (0 : EReal) < thr := by rw [hθ]; exact EReal.coe_pos.mpr ht
    exact (h0.trans_le (not_lt.mp h)).le

/-- A thresholded similarity is its own absolute value. -/
theorem dadj_abs (N : Mat 10000 64) (i j : Fin 10000) : max (dadj N i j) (-(dadj N i j)) = dadj N i j :=
  max_eq_left ((EReal.neg_le_zero.mpr (dadj_nonneg N i j)).trans (dadj_nonneg N i j))

/-- The reference's row weight is the kernel's. -/
theorem l1R_eq_l1K (N : Mat 10000 64) (i : Fin 10000) : l1R N i = l1K N i := by
  unfold l1R l1K
  congr 1
  exact Finset.sum_congr rfl (fun j _ => dadj_abs N i j)

/-- The kernel's row weight is a positive real. -/
theorem l1K_pos (N : Mat 10000 64) (hN : ∀ j, IsReal (N j)) (i : Fin 10000) :
    ∃ x : ℝ, 0 < x ∧ l1K N i = (x : EReal) := by
  obtain ⟨e, he, hε⟩ := eps_pos
  obtain ⟨s, hs⟩ := IsReal.sum Finset.univ (fun j : Fin 10000 => dadj N i j) (fun j _ => dadj_real N hN i j)
  unfold l1K
  rw [hs, hε, ← coe_max]
  exact ⟨_, lt_max_of_lt_right he, rfl⟩

/-! ### The divisor moves across the sum -/

/-- One entry: the quotient of the weighted sum is the sum weighted by the quotients. -/
theorem out_entry (N : Mat 10000 64) (Y : Mat 10000 256) (hN : ∀ j, IsReal (N j)) (hY : ∀ j, IsReal (Y j))
    (i : Fin 10000) (c : Fin 256) :
    Ideal.div (∑ k : Fin 10000, dadj N i k * Y (ix2 k c)) (l1K N i)
      = ∑ k : Fin 10000, Ideal.div (dadj N i k) (l1R N i) * Y (ix2 k c) := by
  rw [l1R_eq_l1K N i]
  obtain ⟨l, hl, hL⟩ := l1K_pos N hN i
  choose d hd using fun k : Fin 10000 => dadj_real N hN i k
  choose y hy using fun k : Fin 10000 => hY (ix2 k c)
  rw [hL, Ideal.div_coe hl.ne']
  have h1 : ∑ k : Fin 10000, dadj N i k * Y (ix2 k c) = ((∑ k : Fin 10000, d k * y k : ℝ) : EReal) := by
    rw [← coe_sum]
    exact Finset.sum_congr rfl (fun k _ => by rw [hd k, hy k, EReal.coe_mul])
  have h2 : ∑ k : Fin 10000, Ideal.div (dadj N i k) (l : EReal) * Y (ix2 k c)
      = ((∑ k : Fin 10000, d k * (1 / l) * y k : ℝ) : EReal) := by
    rw [← coe_sum]
    exact Finset.sum_congr rfl
      (fun k _ => by rw [Ideal.div_coe hl.ne', hd k, hy k, EReal.coe_mul, EReal.coe_mul])
  rw [h1, h2, ← EReal.coe_mul, Finset.sum_mul]
  congr 1
  exact Finset.sum_congr rfl (fun k _ => by ring)

theorem outK_eq_outR (N : Mat 10000 64) (Y : Mat 10000 256) (hN : ∀ j, IsReal (N j)) (hY : ∀ j, IsReal (Y j)) :
    outK N Y = outR N Y := by
  funext j
  exact out_entry N Y hN hY (j 0) (j 1)

/-- With every input entry a real number, dividing the weighted sum by the row weight is the same as weighting by the
    divided similarities, and the reference's row weight (over absolute values) is the kernel's. -/
theorem kernelFn_eq_refFn (feat : Mat 10000 256) (adj : Mat 10000 10000) (w1 : Mat 256 64) (w2 : Mat 64 256)
    (hf : ∀ i, ∃ r : ℝ, feat i = (r : EReal)) (ha : ∀ i, ∃ r : ℝ, adj i = (r : EReal))
    (h1 : ∀ i, ∃ r : ℝ, w1 i = (r : EReal)) (h2 : ∀ i, ∃ r : ℝ, w2 i = (r : EReal)) :
    kernelFn feat adj w1 w2 = refFn feat adj w1 w2 := by
  have hH : ∀ j, IsReal (hid adj (mm feat w1) j) := hid_real adj _ ha (mm_real feat w1 hf h1)
  unfold kernelFn refFn
  exact outK_eq_outR _ _ (hnorm_real _ hH) (mm_real _ w2 hH h2)

end Cert.Spec

end
-- ==== Proof.lean ====
/-
  The certificate's proof. The kernel runs three regions: the projected features h1 = feat · W1; then, from
  H = max(adj · h1, 0), the rows of H divided by their floored norms and Y = H · W2; then, for every row i, the
  similarities of its normalised row with every other, zeroed below the threshold, which weight the rows of Y, the
  weighted sum divided by the floored sum of the weights. The reference divides the weights first and sums the
  absolute values; on real inputs both are one function (every kept weight is positive, and a nonzero real divisor
  moves across a finite sum), and the precondition makes every input entry real.

  The three frames: each kernel instance's run through its three regions ends with every unscoped buffer at the last
  boundary's contents, and no region writes an argument; the reference's run is read back operation by operation.
  The idealization changed no operation, so nothing is owed for it.
-/
import proofs.«131982_g23313082482977_cont_8to1_1054_4_alg».proof.Defs
import proofs.«131982_g23313082482977_cont_8to1_1054_4_alg».proof.Proof.Gen.Kernel
import proofs.«131982_g23313082482977_cont_8to1_1054_4_alg».proof.Proof.Gen.KernelIdeal
import proofs.«131982_g23313082482977_cont_8to1_1054_4_alg».proof.Proof.Gen.ReferenceIdeal
import proofs.«131982_g23313082482977_cont_8to1_1054_4_alg».proof.Proof.Gen.Pre_finite_inputs
import proofs.«131982_g23313082482977_cont_8to1_1054_4_alg».proof.Proof.Gen.ReferenceIdeal.Run
import proofs.«131982_g23313082482977_cont_8to1_1054_4_alg».proof.Proof.Gen.ReferenceIdeal.Read
import proofs.«131982_g23313082482977_cont_8to1_1054_4_alg».proof.Proof.K.Run
import proofs.«131982_g23313082482977_cont_8to1_1054_4_alg».proof.Proof.KI.Run
import proofs.«131982_g23313082482977_cont_8to1_1054_4_alg».proof.Proof.KI.KVal
import proofs.«131982_g23313082482977_cont_8to1_1054_4_alg».proof.Proof.Ref
import proofs.«131982_g23313082482977_cont_8to1_1054_4_alg».proof.Proof.Fin
import proofs.«131982_g23313082482977_cont_8to1_1054_4_alg».proof.Proof.Bridge
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre : Cert.Pre_finite_inputs.Facts]

/-- The word-level kernel runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, from memories agreeing on the four arguments, the kernel's result is the kernel's
    function of them and the reference's result the reference's function of them; under the precondition the inputs
    are real-valued and the two functions agree. -/
theorem algebraic : Cert.algebraic_KernelIdeal_ReferenceIdeal := by
  intro m ρ m' ρ' hpre hagree
  refine ⟨fun c => Cert.Spec.kernelFn (Cert.KernelIdeal.Hand.featOf m c) (Cert.KernelIdeal.Hand.adjOf m c)
      (Cert.KernelIdeal.Hand.w1Of m c) (Cert.KernelIdeal.Hand.w2Of m c), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hf, ha, h1, h2⟩ := Cert.Proof.Finite.real_of_pre m hpre c
  rw [Cert.ReferenceIdeal.Read.val_main_v22_eq, (hagree c).1, (hagree c).2.1, (hagree c).2.2.1, (hagree c).2.2.2]
  exact (Cert.ReferenceIdeal.RefValue.ref_eq _ _ _ _).trans (Cert.Spec.kernelFn_eq_refFn _ _ _ _ hf ha h1 h2).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
